-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8192x256 .f32) (main_arg1 : IVec S2x262144 32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8192x256 : Shape := ⟨2, ![8192, 256]⟩
abbrev S2x262144 : Shape := ⟨2, ![2, 262144]⟩
abbrev S256x256 : Shape := ⟨2, ![256, 256]⟩
abbrev S256 : Shape := ⟨1, ![256]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S1x256 : Shape := ⟨2, ![1, 256]⟩
abbrev S2048x2048 : Shape := ⟨2, ![2048, 2048]⟩
abbrev S2048x256 : Shape := ⟨2, ![2048, 256]⟩
abbrev S2048x128 : Shape := ⟨2, ![2048, 128]⟩
abbrev S2048x1 : Shape := ⟨2, ![2048, 1]⟩
abbrev S2048 : Shape := ⟨1, ![2048]⟩

abbrev nBuf : Space → Nat
  | .hbm => 35
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x256, .f32⟩
  | .hbm, ⟨3, _⟩ => ⟨S256, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .bf16⟩
  | .hbm, ⟨9, _⟩ => ⟨S8192x8192, .bf16⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S8192x256, .bf16⟩
  | .hbm, ⟨31, _⟩ => ⟨S256x256, .f32⟩
  | .hbm, ⟨32, _⟩ => ⟨S256x256, .bf16⟩
  | .hbm, ⟨33, _⟩ => ⟨S1x256, .f32⟩
  | .hbm, ⟨34, _⟩ => ⟨S8192x256, .f32⟩
  | .local _ .vmem, ⟨0, _⟩ => ⟨S2048x2048, .bf16⟩
  | .local _ .vmem, ⟨1, _⟩ => ⟨S2048x2048, .bf16⟩
  | .local _ .vmem, ⟨2, _⟩ => ⟨S8192x256, .bf16⟩
  | .local _ .vmem, ⟨3, _⟩ => ⟨S256x256, .bf16⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x128_S2048x1_0_0 : ∀ a, (![0, 0] : Fin 2 → Nat) a + S2048x1.size a ≤ S2048x128.size a
  h_S2048x1 : 0 < S2048x1.numel
  reduces_S2048x2048_S2048 : S2048x2048.Reduces [1] S2048
  shapeCasts_S2048_S2048x1 : S2048.ShapeCasts S2048x1
  shapeCasts_S2048x1_S2048x1 : S2048x1.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  scatter_S8192x8192_S262144x2_S262144_n_01_01_1_wf : ScatterDims.WF S8192x8192 S262144x2 S262144 [] [0, 1] [0, 1] 1
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v19) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S2x262144 : Shape := ⟨2, ![2, 262144]⟩
abbrev S256x256 : Shape := ⟨2, ![256, 256]⟩
abbrev S256 : Shape := ⟨1, ![256]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x256, .f32⟩
  | .hbm, ⟨44, _⟩ => ⟨S256x256, .f32⟩
  | .hbm, ⟨45, _⟩ => ⟨S8192x256, .f32⟩
  | .hbm, ⟨46, _⟩ => ⟨S1x256, .f32⟩
  | .hbm, ⟨47, _⟩ => ⟨S8192x256, .f32⟩
  | .hbm, ⟨48, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  scatter_S8192x8192_S262144x2_S262144_n_01_01_1_wf : ScatterDims.WF S8192x8192 S262144x2 S262144 [] [0, 1] [0, 1] 1
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KPieces.lean ====
/-
  What each control case of the kernel body leaves in its two accumulators and in the output block, as the
  body's own arithmetic of what it loaded.

  The body keeps a [2048, 256] accumulator (neighbour features summed so far) and a degree column (column 0 of a
  [2048, 128] buffer).  At every grid point it adds the adjacency tile times the feature tile to the first and the
  tile's row sums to the second; on the first column tile both are zeroed before that; on the diagonal tile the
  node's own features and the constant one are added after it; on the last column tile the accumulator is divided
  by the degree column, multiplied by the weights and offset by the bias into the output block.  The six cases
  are the six combinations of "first column tile", "diagonal tile", "last column tile" that occur on a 4 x 4 grid.

  Each lemma reads the list of stores a case performs — every store covers either a whole buffer or the degree
  column, and a later load through the same rectangle reads what the last store through it wrote.
-/
import proofs.«422402_j46213848105055_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access, as a constant function. -/
theorem hz2 : (![0, 0] : Fin 2 → ℕ) = fun _ => 0 := by
  funext a
  match a with
  | ⟨0, _⟩ => rfl
  | ⟨1, _⟩ => rfl

/-- The degree column: column 0 of the [2048, 128] buffer. -/
abbrev colRect : Rect S2048x128 := Rect.unit (s := S2048x128) ![0, 0] S2048x1.size inb_S2048x128_S2048x1_0_0

/-- The degree column of a [2048, 128] buffer's contents. -/
abbrev degCol (s : Vec F S2048x128 .f32) : Vec F S2048x1 .f32 := View.ld s colRect

/-- The 2048 rows of the resident features that column tile `i 1` multiplies: rows `2048 · (i 1)` onwards. -/
abbrev xtile (i : grid0.Coords) (x1 : Vec F S8192x256 .bf16) : Vec F S2048x256 .bf16 :=
  View.ld x1 (Rect.unit (s := S8192x256) (k0_off1 i) S2048x256.size (k0_off1_inb i))

variable (c : Dev nD) (i : grid0.Coords) (arg2 : Memref sig .tc .vmem S2048x2048 .bf16) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x128 .f32) (harg8 : arg8.IsWhole)
variable (x0 : Vec F S2048x2048 .bf16) (x1 : Vec F S8192x256 .bf16) (x2 : Vec F S256x256 .bf16) (x3 : Vec F S1x256 .f32) (xs0 : Vec F S2048x256 .f32) (xs1 : Vec F S2048x128 .f32)

/-! ## The feature accumulator -/

/-- Off the diagonal, after the first column tile: the accumulator plus the tile product. -/
theorem acc_B (hc0 : ¬cond0_0 i) (hc1 : ¬cond0_1 i) (hc2 : ¬cond0_2 i) :
    sout0_B_0 c i arg2 harg2 arg3 harg3 arg4 harg4 arg5 harg5 arg6 harg6 arg7 harg7 arg8 harg8 hc0 hc1 hc2 x0 x1 x2 x3 xs0 xs1 = k0_pay5 x0 (xtile i x1) xs0 := by
  unfold sout0_B_0
  rw [View.read_writes_eq_canon _ _ _ (scover0_B_0 c i arg2 harg2 arg3 harg3 arg4 harg4 arg5 harg5 arg6 harg6 arg7 harg7 arg8 harg8 hc0 hc1 hc2 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

theorem acc_C (hc0 : ¬cond0_0 i) (hc1 : ¬cond0_1 i) (hc2 : cond0_2 i) :
    sout0_C_0 c i arg2 harg2 arg3 harg3 arg4 harg4 arg5 harg5 arg6 harg6 arg7 harg7 arg8 harg8 hc0 hc1 hc2 x0 x1 x2 x3 xs0 xs1 = k0_pay5 x0 (xtile i x1) xs0 := by
  unfold sout0_C_0
  rw [View.read_writes_eq_canon _ _ _ (scover0_C_0 c i arg2 harg2 arg3 harg3 arg4 harg4 arg5 harg5 arg6 harg6 arg7 harg7 arg8 harg8 hc0 hc1 hc2 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

/-- On the diagonal, after the first column tile: the tile product, then the node's own features. -/
theorem acc_E (hc0 : ¬cond0_0 i) (hc1 : cond0_1 i) (hc2 : ¬cond0_2 i) :
    sout0_E_0 c i arg2 harg2 arg3 harg3 arg4 harg4 arg5 harg5 arg6 harg6 arg7 harg7 arg8 harg8 hc0 hc1 hc2 x0 x1 x2 x3 xs0 xs1 = k0_pay7 (xtile i x1) (k0_pay5 x0 (xtile i x1) xs0) := by
  unfold sout0_E_0
  rw [View.read_writes_eq_canon _ _ _ (scover0_E_0 c i arg2 harg2 arg3 harg3 arg4 harg4 arg5 harg5 arg6 harg6 arg7 harg7 arg8 harg8 hc0 hc1 hc2 x0 x1 x2 x3 xs0 xs1)]
  unfold kernelRun0_E
  dsimp only
  sl_unfold_words
  rw [View.canon_cons_unit_zero hz2]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

theorem acc_F (hc0 : ¬cond0_0 i) (hc1 : cond0_1 i) (hc2 : cond0_2 i) :
    sout0_F_0 c i arg2 harg2 arg3 harg3 arg4 harg4 arg5 harg5 arg6 harg6 arg7 harg7 arg8 harg8 hc0 hc1 hc2 x0 x1 x2 x3 xs0 xs1 = k0_pay7 (xtile i x1) (k0_pay5 x0 (xtile i x1) xs0) := by
  unfold sout0_F_0
  rw [View.read_writes_eq_canon _ _ _ (scover0_F_0 c i arg2 harg2 arg3 harg3 arg4 harg4 arg5 harg5 arg6 harg6 arg7 harg7 arg8 harg8 hc0 hc1 hc2 x0 x1 x2 x3 xs0 xs1)]
  unfold kernelRun0_F
  dsimp only
  sl_unfold_words
  rw [View.canon_cons_unit_zero hz2]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

/-- First column tile, off the diagonal: zeroed, then the tile product. -/
theorem acc_D (hc0 : cond0_0 i) (hc1 : ¬cond0_1 i) (hc2 : ¬cond0_2 i) :
    sout0_D_0 c i arg2 harg2 arg3 harg3 arg4 harg4 arg5 harg5 arg6 harg6 arg7 harg7 arg8 harg8 hc0 hc1 hc2 x0 x1 x2 x3 = k0_pay5 x0 (xtile i x1) (k0_pay1 (F := F)) := by
  unfold sout0_D_0
  rw [View.read_writes_eq_canon _ _ _ (scover0_D_0 c i arg2 harg2 arg3 harg3 arg4 harg4 arg5 harg5 arg6 harg6 arg7 harg7 arg8 harg8 hc0 hc1 hc2 x0 x1 x2 x3)]
  unfold kernelRun0_D
  dsimp only
  sl_unfold_words
  rw [View.canon_cons_unit_zero hz2]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

/-- First column tile on the diagonal (the grid's first point): zeroed, the tile product, the node's own features. -/
theorem acc_A (hc0 : cond0_0 i) (hc1 : cond0_1 i) (hc2 : ¬cond0_2 i) :
    sout0_A_0 c i arg2 harg2 arg3 harg3 arg4 harg4 arg5 harg5 arg6 harg6 arg7 harg7 arg8 harg8 hc0 hc1 hc2 x0 x1 x2 x3 = k0_pay7 (xtile i x1) (k0_pay5 x0 (xtile i x1) (k0_pay1 (F := F))) := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3)]
  unfold kernelRun0_A
  dsimp only
  sl_unfold_words
  rw [View.canon_cons_unit_zero hz2]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

/-! ## The degree column -/

/-- A load of the degree column right after the whole [2048, 128] buffer was stored reads that store's column. -/
theorem readCov_zeroed_col (v : View sig .tc .vmem S2048x128 .f32) (w : Vec F S2048x128 .f32) :
    v.readCov [(⟨Rect.unit (s := S2048x128) ![0, 0] S2048x128.size inb_S2048x128_S2048x128_0_0, w⟩ : View.Piece (Elt F) S2048x128 .f32)]
        colRect.toLoadRect = degCol w := by
  rw [View.readCov_eq_canon_ld _ _ _ (fun y => ⟨_, List.mem_singleton_self _, View.mem_set_unit_zero hz2 inb_S2048x128_S2048x128_0_0 y⟩),
    View.canon_unit_zero hz2]

/-- Off the diagonal, after the first column tile: the column plus the tile's row sums; the other columns keep
    what they held, and nothing reads them. -/
theorem deg_B (hc0 : ¬cond0_0 i) (hc1 : ¬cond0_1 i) (hc2 : ¬cond0_2 i) :
    degCol (sout0_B_1 c i arg2 harg2 arg3 harg3 arg4 harg4 arg5 harg5 arg6 harg6 arg7 harg7 arg8 harg8 hc0 hc1 hc2 x0 x1 x2 x3 xs0 xs1) = k0_pay6 x0 (degCol xs1) := by
  unfold sout0_B_1 kernelRun0_B
  dsimp only
  sl_unfold_words
  funext y
  show View.read (Elt F) arg8.view (arg8.view.writes (Elt F) (harg8.unread xs1) _) (colRect.emb y) = _
  rw [View.read_writes_cons_emb]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]

theorem deg_C (hc0 : ¬cond0_0 i) (hc1 : ¬cond0_1 i) (hc2 : cond0_2 i) :
    degCol (sout0_C_1 c i arg2 harg2 arg3 harg3 arg4 harg4 arg5 harg5 arg6 harg6 arg7 harg7 arg8 harg8 hc0 hc1 hc2 x0 x1 x2 x3 xs0 xs1) = k0_pay6 x0 (degCol xs1) := by
  unfold sout0_C_1 kernelRun0_C
  dsimp only
  sl_unfold_words
  funext y
  show View.read (Elt F) arg8.view (arg8.view.writes (Elt F) (harg8.unread xs1) _) (colRect.emb y) = _
  rw [View.read_writes_cons_emb]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]

/-- On the diagonal: the row sums, then one more for the self loop. -/
theorem deg_E (hc0 : ¬cond0_0 i) (hc1 : cond0_1 i) (hc2 : ¬cond0_2 i) :
    degCol (sout0_E_1 c i arg2 harg2 arg3 harg3 arg4 harg4 arg5 harg5 arg6 harg6 arg7 harg7 arg8 harg8 hc0 hc1 hc2 x0 x1 x2 x3 xs0 xs1) = k0_pay8 (k0_pay6 x0 (degCol xs1)) := by
  unfold sout0_E_1 kernelRun0_E
  dsimp only
  sl_unfold_words
  funext y
  show View.read (Elt F) arg8.view (arg8.view.writes (Elt F) (harg8.unread xs1) _) (colRect.emb y) = _
  rw [View.read_writes_cons_emb]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]

theorem deg_F (hc0 : ¬cond0_0 i) (hc1 : cond0_1 i) (hc2 : cond0_2 i) :
    degCol (sout0_F_1 c i arg2 harg2 arg3 harg3 arg4 harg4 arg5 harg5 arg6 harg6 arg7 harg7 arg8 harg8 hc0 hc1 hc2 x0 x1 x2 x3 xs0 xs1) = k0_pay8 (k0_pay6 x0 (degCol xs1)) := by
  unfold sout0_F_1 kernelRun0_F
  dsimp only
  sl_unfold_words
  funext y
  show View.read (Elt F) arg8.view (arg8.view.writes (Elt F) (harg8.unread xs1) _) (colRect.emb y) = _
  rw [View.read_writes_cons_emb]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]

/-- First column tile: the whole buffer zeroed first. -/
theorem deg_D (hc0 : cond0_0 i) (hc1 : ¬cond0_1 i) (hc2 : ¬cond0_2 i) :
    degCol (sout0_D_1 c i arg2 harg2 arg3 harg3 arg4 harg4 arg5 harg5 arg6 harg6 arg7 harg7 arg8 harg8 hc0 hc1 hc2 x0 x1 x2 x3) = k0_pay6 x0 (degCol (k0_pay2 (F := F))) := by
  unfold sout0_D_1 kernelRun0_D
  dsimp only
  sl_unfold_words
  funext y
  show View.read (Elt F) VS0_1 (VS0_1.writes (Elt F) VS0_1.junk _) (colRect.emb y) = _
  rw [View.read_writes_cons_emb]
  simp only [View.readCov_cons_toLoadRect, View.readAt_eq_ld, harg2.read_unread, View.ld_unit_zero (S := S2048x2048) hz2]
  exact congrFun (congrArg (k0_pay6 x0) (readCov_zeroed_col arg8.view (k0_pay2 (F := F)))) y

theorem deg_A (hc0 : cond0_0 i) (hc1 : cond0_1 i) (hc2 : ¬cond0_2 i) :
    degCol (sout0_A_1 c i arg2 harg2 arg3 harg3 arg4 harg4 arg5 harg5 arg6 harg6 arg7 harg7 arg8 harg8 hc0 hc1 hc2 x0 x1 x2 x3) = k0_pay8 (k0_pay6 x0 (degCol (k0_pay2 (F := F)))) := by
  unfold sout0_A_1 kernelRun0_A
  dsimp only
  sl_unfold_words
  funext y
  show View.read (Elt F) VS0_1 (VS0_1.writes (Elt F) VS0_1.junk _) (colRect.emb y) = _
  rw [View.read_writes_cons_emb]
  simp only [View.readCov_cons_toLoadRect, View.readAt_eq_ld, harg2.read_unread, View.ld_unit_zero (S := S2048x2048) hz2]
  exact congrFun (congrArg (fun z => k0_pay8 (k0_pay6 x0 z)) (readCov_zeroed_col arg8.view (k0_pay2 (F := F)))) y

/-! ## The output block, stored on the last column tile -/

/-- Off the diagonal: the final quotient of this point's accumulator by this point's degree column, times the
    weights, plus the bias. -/
theorem out_C (hc0 : ¬cond0_0 i) (hc1 : ¬cond0_1 i) (hc2 : cond0_2 i) :
    out0_C_4 c i arg2 harg2 arg3 harg3 arg4 harg4 arg5 harg5 arg6 harg6 arg7 harg7 arg8 harg8 hc0 hc1 hc2 x0 x1 x2 x3 xs0 xs1 = k0_pay9 (k0_pay6 x0 (degCol xs1)) (k0_pay5 x0 (xtile i x1) xs0) x2 x3 := by
  unfold out0_C_4
  rw [View.read_writes_eq_canon _ _ _ (cover0_C_4 c i arg2 harg2 arg3 harg3 arg4 harg4 arg5 harg5 arg6 harg6 arg7 harg7 arg8 harg8 hc0 hc1 hc2 x0 x1 x2 x3 xs0 xs1)]
  unfold kernelRun0_C
  dsimp only
  sl_unfold_words
  rw [View.canon_unit_zero hz2]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

/-- On the diagonal (the grid's last point) the same over the accumulators with the self loop added. -/
theorem out_F (hc0 : ¬cond0_0 i) (hc1 : cond0_1 i) (hc2 : cond0_2 i) :
    out0_F_4 c i arg2 harg2 arg3 harg3 arg4 harg4 arg5 harg5 arg6 harg6 arg7 harg7 arg8 harg8 hc0 hc1 hc2 x0 x1 x2 x3 xs0 xs1 = k0_pay9 (k0_pay8 (k0_pay6 x0 (degCol xs1))) (k0_pay7 (xtile i x1) (k0_pay5 x0 (xtile i x1) xs0)) x2 x3 := by
  unfold out0_F_4
  rw [View.read_writes_eq_canon _ _ _ (cover0_F_4 c i arg2 harg2 arg3 harg3 arg4 harg4 arg5 harg5 arg6 harg6 arg7 harg7 arg8 harg8 hc0 hc1 hc2 x0 x1 x2 x3 xs0 xs1)]
  unfold kernelRun0_F
  dsimp only
  sl_unfold_words
  rw [View.canon_unit_zero hz2]
  simp only [View.readCov_cons_toLoadRect, View.readAt_eq_ld, harg2.read_unread, harg3.read_unread, harg4.read_unread, harg5.read_unread, harg7.read_unread, harg8.read_unread, View.ld_unit_zero (S := S2048x2048) hz2, View.ld_unit_zero (S := S2048x256) hz2, View.ld_unit_zero (S := S256x256) hz2, View.ld_unit_zero (S := S1x256) hz2]
  rfl

end Cert.KernelIdeal.Pieces

end
-- ==== Proof.GcnMath.lean ====
/-
  The mathematics of a row-normalised graph aggregation, apart from any program.

  For one node `r` with adjacency row `a` (entries 0 or 1), features `ξ` and the self loop `δ` (1 at `r`, 0
  elsewhere) the two ways of normalising agree: dividing every entry of `a + δ` by the degree `∑ (a + δ)` and then
  taking the weighted sum of the features is the weighted sum plus the node's own feature, divided by
  `∑ a + 1`.  The degree is a positive real, so both are ordinary real arithmetic; on the extended reals the law
  needs the adjacency and the features finite, which is why it is stated over real-valued data.

  Also here: a sum accumulated tile by tile with one extra term added after the diagonal tile, in closed form;
  a sum over 8192 columns split into four tiles of 2048; and the fact that scattering ones into zeros leaves
  only zeros and ones.
-/
import Mathlib.Data.EReal.Operations
import Mathlib.Algebra.BigOperators.Fin
import Mathlib.Logic.Equiv.Fin.Basic
import Idealize.ShloMosaic.PureOps.Ideal
import Idealize.ShloMosaic.PureOps.Ideal.Laws
import Idealize.ShloMosaic.PureOps.ShapeOps

noncomputable section

namespace Cert.GcnMath

open Idealize.ShloMosaic

/-! ## Casts of finite sums -/

/-- The cast of reals into the extended reals commutes with finite sums. -/
theorem coe_sum {ι : Type} (s : Finset ι) (f : ι → ℝ) :
    (∑ c ∈ s, ((f c : ℝ) : EReal)) = ((∑ c ∈ s, f c : ℝ) : EReal) := by
  classical
  refine Finset.induction_on s ?_ ?_
  · simp
  · intro a s ha ih
    rw [Finset.sum_insert ha, Finset.sum_insert ha, ih, EReal.coe_add]

/-! ## A sum accumulated tile by tile, the self term added after the diagonal tile -/

/-- One step: add tile `j`'s contribution, and after it the self term when `j` is the diagonal tile `i`. -/
def accStep (blk : ℕ → EReal) (self : EReal) (i j : ℕ) (prev : EReal) : EReal :=
  if i = j then (prev + blk j) + self else prev + blk j

/-- The accumulator of row tile `i` after column tile `j`, started from zero at tile 0. -/
def accAt (blk : ℕ → EReal) (self : EReal) (i : ℕ) : ℕ → EReal
  | 0 => accStep blk self i 0 0
  | j + 1 => accStep blk self i (j + 1) (accAt blk self i j)

theorem accAt_zero (blk : ℕ → EReal) (self : EReal) (i : ℕ) : accAt blk self i 0 = accStep blk self i 0 0 := rfl

theorem accAt_succ (blk : ℕ → EReal) (self : EReal) (i j : ℕ) :
    accAt blk self i (j + 1) = accStep blk self i (j + 1) (accAt blk self i j) := rfl

/-- After the fourth tile every tile has been added once and the self term once, whichever tile was diagonal:
    addition of extended reals is commutative and associative. -/
theorem accAt_three (blk : ℕ → EReal) (self : EReal) (i : ℕ) (hi : i < 4) :
    accAt blk self i 3 = (blk 0 + blk 1 + blk 2 + blk 3) + self := by
  have h : i = 0 ∨ i = 1 ∨ i = 2 ∨ i = 3 := by omega
  rcases h with rfl | rfl | rfl | rfl <;>
    simp only [accAt, accStep, if_true, zero_add, Nat.reduceAdd, Nat.reduceEqDiff, if_false,
      OfNat.ofNat_ne_zero, OfNat.zero_ne_ofNat, Nat.succ_ne_self, OfNat.ofNat_ne_one, OfNat.one_ne_ofNat,
      reduceCtorEq] <;>
    simp only [add_assoc, add_comm, add_left_comm]

/-! ## Four column tiles of 2048 make the 8192 columns -/

/-- Column `q` of tile `j`. -/
def col (j : Fin 4) (q : Fin 2048) : Fin 8192 := ⟨2048 * j.val + q.val, by have := j.isLt; have := q.isLt; omega⟩

theorem col_val (j : Fin 4) (q : Fin 2048) : (col j q).val = 2048 * j.val + q.val := rfl

/-- A sum over the 8192 columns is the sum over the four tiles of the sums inside each. -/
theorem sum_cols {M : Type} [AddCommMonoid M] (f : Fin 8192 → M) :
    ∑ c : Fin 8192, f c = ∑ j : Fin 4, ∑ q : Fin 2048, f (col j q) := by
  have e : ∑ c : Fin 8192, f c = ∑ p : Fin 4 × Fin 2048, f (col p.1 p.2) := by
    refine (Fintype.sum_equiv (finProdFinEquiv (m := 4) (n := 2048)) (fun p => f (col p.1 p.2)) f ?_).symm
    intro p
    refine congrArg f (Fin.ext ?_)
    show 2048 * p.1.val + p.2.val = p.2.val + 2048 * p.1.val
    omega
  rw [e, Fintype.sum_prod_type]

/-- The four tiles written out. -/
theorem sum_fin4 {M : Type} [AddCommMonoid M] (g : Fin 4 → M) : ∑ j : Fin 4, g j = g 0 + g 1 + g 2 + g 3 := by
  simp [Fin.sum_univ_succ, add_assoc]

/-! ## Scattering ones into zeros -/

/-- A scatter that overwrites (its body returns the update) leaves at every index either what was there or one
    of the updates; so any property of all old entries and all updates holds of every new entry. -/
theorem scatter_overwrite_forall {α : Type} {s si u : Shape} {w : Nat} (d : ScatterDims s si u) (x : s.Idx → α)
    (idx : IVec si w) (upd : u.Idx → α) (P : α → Prop) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    refine ih _ ?_
    intro i'
    generalize d.resultIdx? (u.rowMajor.symm n) idx = o
    cases o with
    | none => exact hx i'
    | some j =>
      show P (if i' = j then upd (u.rowMajor.symm n) else x i')
      split
      · exact hu _
      · exact hx _

/-! ## The two normalisations agree -/

/-- Row `r` of `(a + δ) / deg` against the features, where `deg = 0 + ∑ (a + δ)`, is `(∑ a·ξ + ξ r) / (∑ a + 1)`:
    the adjacency entries are non-negative reals, so the degree is a real `≥ 1`, division by it is the product with
    its reciprocal, and the rest is distributivity in the reals. -/
theorem normalise_row {ι : Type} [Fintype ι] [DecidableEq ι] (a δ ξ : ι → ℝ) (r : ι) (ha : ∀ c, 0 ≤ a c)
    (hδ : ∀ c, δ c = if c = r then 1 else 0) :
    ∑ c, Ideal.div (((a c : ℝ) : EReal) + ((δ c : ℝ) : EReal)) (0 + ∑ c', (((a c' : ℝ) : EReal) + ((δ c' : ℝ) : EReal)))
        * ((ξ c : ℝ) : EReal)
      = Ideal.div (∑ c, ((a c : ℝ) : EReal) * ((ξ c : ℝ) : EReal) + ((ξ r : ℝ) : EReal)) (∑ c, ((a c : ℝ) : EReal) + 1) := by
  have hsδ : ∑ c, δ c = 1 := by
    simp only [hδ, Finset.sum_ite_eq', Finset.mem_univ, if_true]
  set d : ℝ := ∑ c, a c + 1 with hd
  have hdpos : 0 < d := by
    have : 0 ≤ ∑ c, a c := Finset.sum_nonneg fun c _ => ha c
    linarith
  have hd0 : d ≠ 0 := ne_of_gt hdpos
  have hden1 : (0 + ∑ c', (((a c' : ℝ) : EReal) + ((δ c' : ℝ) : EReal))) = ((d : ℝ) : EReal) := by
    rw [zero_add]
    simp only [← EReal.coe_add]
    rw [coe_sum, Finset.sum_add_distrib, hsδ]
  have hden2 : (∑ c, ((a c : ℝ) : EReal) + 1) = ((d : ℝ) : EReal) := by
    rw [coe_sum, ← EReal.coe_one, ← EReal.coe_add]
  rw [hden1, hden2, Ideal.div_coe hd0]
  simp only [Ideal.div_coe hd0, ← EReal.coe_add, ← EReal.coe_mul]
  rw [coe_sum, coe_sum, ← EReal.coe_add, ← EReal.coe_mul]
  congr 1
  have hδξ : ∑ c, δ c * ξ c = ξ r := by
    simp only [hδ, ite_mul, one_mul, zero_mul, Finset.sum_ite_eq', Finset.mem_univ, if_true]
  calc ∑ c, (a c + δ c) * (1 / d) * ξ c
      = (∑ c, a c * ξ c + ∑ c, δ c * ξ c) * (1 / d) := by
        rw [← Finset.sum_add_distrib, Finset.sum_mul]
        exact Finset.sum_congr rfl fun c _ => by ring
    _ = (∑ c, a c * ξ c + ξ r) * (1 / d) := by rw [hδξ]

end Cert.GcnMath

end
-- ==== Proof.GcnSpec.lean ====
/-
  The layer's result as one function of the adjacency, the features, the weights and the bias.

  Row `r`, output channel `o`:   `∑ k, ((∑ c, A r c · x c k + x r k) / (∑ c, A r c + 1)) · W o k  +  b o`
  — the neighbours' features summed with the node's own, divided by the degree with the self loop counted,
  then the linear layer.
-/
import Idealize.ShloMosaic.Lib.ValueIdx
import Idealize.ShloMosaic.PureOps.Ideal

noncomputable section

namespace Cert.Gcn

open Idealize.ShloMosaic Idealize.ShloMosaic.ValueIdx

/-- Channel `k` of row `r`'s normalised aggregate. -/
def aggregate (A : (⟨2, ![8192, 8192]⟩ : Shape).Idx → EReal) (x : (⟨2, ![8192, 256]⟩ : Shape).Idx → EReal)
    (r : Fin 8192) (k : Fin 256) : EReal :=
  Ideal.div (∑ c : Fin 8192, A (ix2 r c) * x (ix2 c k) + x (ix2 r k)) (∑ c : Fin 8192, A (ix2 r c) + 1)

/-- The layer's result. -/
def result (A : (⟨2, ![8192, 8192]⟩ : Shape).Idx → EReal) (x : (⟨2, ![8192, 256]⟩ : Shape).Idx → EReal)
    (W : (⟨2, ![256, 256]⟩ : Shape).Idx → EReal) (b : (⟨1, ![256]⟩ : Shape).Idx → EReal) :
    (⟨2, ![8192, 256]⟩ : Shape).Idx → EReal :=
  fun i => (∑ k : Fin 256, aggregate A x (i 0) k * W (ix2 (i 1) k)) + b (ix1 (i 1))

theorem result_apply (A : (⟨2, ![8192, 8192]⟩ : Shape).Idx → EReal) (x : (⟨2, ![8192, 256]⟩ : Shape).Idx → EReal)
    (W : (⟨2, ![256, 256]⟩ : Shape).Idx → EReal) (b : (⟨1, ![256]⟩ : Shape).Idx → EReal) (r : Fin 8192) (o : Fin 256) :
    result A x W b (ix2 r o) = (∑ k : Fin 256, aggregate A x r k * W (ix2 o k)) + b (ix1 o) := rfl

end Cert.Gcn

end
-- ==== Proof.GcnTiles.lean ====
/-
  The aggregate of one row, assembled from four column tiles.

  The kernel visits the 8192 columns of a row in four tiles of 2048.  Tile `j` contributes
  `∑ q, A r (2048 j + q) · x (2048 j + q) k` to the numerator and `∑ q, A r (2048 j + q)` to the degree; the
  node's own feature and the constant one are added once, after the diagonal tile.  After the fourth tile the
  quotient of the two accumulators is the row's normalised aggregate, whichever tile was diagonal.
-/
import proofs.«422402_j46213848105055_3_alg».proof.Proof.GcnMath
import proofs.«422402_j46213848105055_3_alg».proof.Proof.GcnSpec

noncomputable section

namespace Cert.Gcn

open Idealize.ShloMosaic Idealize.ShloMosaic.ValueIdx Cert.GcnMath

/-- Column `q` of tile number `j` (a total function of the natural number `j`; for `j < 4` it is `2048 j + q`). -/
def colN (j : ℕ) (q : Fin 2048) : Fin 8192 := ⟨(2048 * j + q.val) % 8192, Nat.mod_lt _ (by decide)⟩

theorem colN_val (j : ℕ) (hj : j < 4) (q : Fin 2048) : (colN j q).val = 2048 * j + q.val := by
  have := q.isLt
  show (2048 * j + q.val) % 8192 = _
  exact Nat.mod_eq_of_lt (by omega)

theorem colN_eq_col (j : Fin 4) (q : Fin 2048) : colN j.val q = col j q :=
  Fin.ext (by rw [colN_val _ j.isLt, col_val])

variable (A : (⟨2, ![8192, 8192]⟩ : Shape).Idx → EReal) (x : (⟨2, ![8192, 256]⟩ : Shape).Idx → EReal)

/-- Tile `j`'s contribution to channel `k` of row `r`'s numerator. -/
def tileNum (r : Fin 8192) (k : Fin 256) (j : ℕ) : EReal :=
  ∑ q : Fin 2048, A (ix2 r (colN j q)) * x (ix2 (colN j q) k)

/-- Tile `j`'s contribution to row `r`'s degree. -/
def tileDeg (r : Fin 8192) (j : ℕ) : EReal := ∑ q : Fin 2048, A (ix2 r (colN j q))

/-- The four tiles' contributions make the sum over all columns. -/
theorem tiles_num (r : Fin 8192) (k : Fin 256) :
    tileNum A x r k 0 + tileNum A x r k 1 + tileNum A x r k 2 + tileNum A x r k 3
      = ∑ c : Fin 8192, A (ix2 r c) * x (ix2 c k) := by
  rw [sum_cols (fun c => A (ix2 r c) * x (ix2 c k)), sum_fin4]
  simp only [tileNum, ← colN_eq_col]
  rfl

theorem tiles_deg (r : Fin 8192) :
    tileDeg A r 0 + tileDeg A r 1 + tileDeg A r 2 + tileDeg A r 3 = ∑ c : Fin 8192, A (ix2 r c) := by
  rw [sum_cols (fun c => A (ix2 r c)), sum_fin4]
  simp only [tileDeg, ← colN_eq_col]
  rfl

/-- After the fourth tile: accumulated numerator over accumulated degree is the row's normalised aggregate. -/
theorem aggregate_of_tiles (r : Fin 8192) (k : Fin 256) (i : ℕ) (hi : i < 4) :
    Ideal.div (accAt (tileNum A x r k) (x (ix2 r k)) i 3) (accAt (tileDeg A r) 1 i 3) = aggregate A x r k := by
  rw [accAt_three _ _ i hi, accAt_three _ _ i hi, tiles_num, tiles_deg]
  rfl

end Cert.Gcn

end
-- ==== Proof.KBlocks.lean ====
/-
  Where each grid point's tiles sit in the arrays the launch finds, and what three of those arrays are.

  Grid point `t` (row tile `t / 4`, column tile `t % 4`) is handed the adjacency tile with rows
  `2048 (t / 4) + p` and columns `2048 (t % 4) + q`; the features, the transposed weights and the bias row are
  resident whole, and the body slices rows `2048 (t % 4) + q` out of the features.  The features are the first
  argument (a change of format, the identity on the extended reals), the weight tile is the second argument
  transposed, the bias row is the third argument laid out as one row.
-/
import proofs.«422402_j46213848105055_3_alg».proof.Proof.Gen.KernelIdeal.Frame
import proofs.«422402_j46213848105055_3_alg».proof.Proof.KPieces
import proofs.«422402_j46213848105055_3_alg».proof.Proof.GcnTiles
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Pieces Cert.Gcn
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The grid has sixteen points. -/
theorem lt16 (t : Fin cfg0.N) : t.val < 16 := lt_of_lt_of_eq t.isLt (show cfg0.N = 16 from N_0)

/-! ## The index maps, decided once over the grid -/

theorem idx0 : ∀ t : Fin cfg0.N, win0_0.index t (0 : Fin 2) = t.val / 4 ∧ win0_0.index t (1 : Fin 2) = t.val % 4 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = t.val / 4 ∧ win0_4.index t (1 : Fin 2) = 0 :=
  (by decide +kernel : ∀ t : Fin grid0.N, _)

/-- The body's row offset into the resident features: `2048 · (t % 4)`. -/
theorem off1 : ∀ t : Fin cfg0.N, k0_off1 (grid0.coords t) (0 : Fin 2) = 2048 * (t.val % 4) ∧ k0_off1 (grid0.coords t) (1 : Fin 2) = 0 :=
  (by decide +kernel : ∀ t : Fin grid0.N, _)

/-! ## The arrays the launch finds, at their literal types -/

abbrev adjArr (c : Dev nD) : Vec F S8192x8192 .bf16 := V m c main_v19
abbrev featArr (c : Dev nD) : Vec F S8192x256 .bf16 := V m c main_v20
abbrev wtArr (c : Dev nD) : Vec F S256x256 .bf16 := V m c main_v22
abbrev biasArr (c : Dev nD) : Vec F S1x256 .f32 := V m c main_v23

/-! ## The tiles -/

/-- The adjacency tile of point `t`. -/
theorem adjTile_apply (c : Dev nD) (t : Fin cfg0.N) (p q : Fin 2048) :
    (iblk m c 0 t : Vec F S2048x2048 .bf16) (ix2 p q) = adjArr m c (ix2 (colN (t.val / 4) p) (colN (t.val % 4) q)) := by
  have h16 := lt16 t
  unfold iblk
  rw [View.read_apply]
  show V m c main_v19 _ = V m c main_v19 _
  congr 1
  funext a
  apply Fin.ext
  match a with
  | ⟨0, _⟩ =>
    show win0_0.index t 0 * 2048 + 1 * p.val = (colN (t.val / 4) p).val
    rw [(idx0 t).1, colN_val _ (by omega)]; omega
  | ⟨1, _⟩ =>
    show win0_0.index t 1 * 2048 + 1 * q.val = (colN (t.val % 4) q).val
    rw [(idx0 t).2, colN_val _ (by omega)]; omega

/-- The resident features are the whole array. -/
theorem featRes_eq (c : Dev nD) (t : Fin cfg0.N) : (iblk m c 1 t : Vec F S8192x256 .bf16) = featArr m c := by
  funext j
  unfold iblk
  rw [View.read_apply]
  show V m c main_v20 _ = V m c main_v20 j
  congr 1
  funext a
  apply Fin.ext
  match a with
  | ⟨0, _⟩ => show win0_1.index t 0 * 8192 + 1 * (j 0).val = (j 0).val; rw [(idx1 t).1]; omega
  | ⟨1, _⟩ => show win0_1.index t 1 * 256 + 1 * (j 1).val = (j 1).val; rw [(idx1 t).2]; omega

/-- The resident weight tile is the whole array. -/
theorem wtRes_eq (c : Dev nD) (t : Fin cfg0.N) : (iblk m c 2 t : Vec F S256x256 .bf16) = wtArr m c := by
  funext j
  unfold iblk
  rw [View.read_apply]
  show V m c main_v22 _ = V m c main_v22 j
  congr 1
  funext a
  apply Fin.ext
  match a with
  | ⟨0, _⟩ => show win0_2.index t 0 * 256 + 1 * (j 0).val = (j 0).val; rw [(idx2 t).1]; omega
  | ⟨1, _⟩ => show win0_2.index t 1 * 256 + 1 * (j 1).val = (j 1).val; rw [(idx2 t).2]; omega

/-- The resident bias row is the whole array. -/
theorem biasRes_eq (c : Dev nD) (t : Fin cfg0.N) : (iblk m c 3 t : Vec F S1x256 .f32) = biasArr m c := by
  funext j
  unfold iblk
  rw [View.read_apply]
  show V m c main_v23 _ = V m c main_v23 j
  congr 1
  funext a
  apply Fin.ext
  match a with
  | ⟨0, _⟩ => show win0_3.index t 0 * 1 + 1 * (j 0).val = (j 0).val; rw [(idx3 t).1]; omega
  | ⟨1, _⟩ => show win0_3.index t 1 * 256 + 1 * (j 1).val = (j 1).val; rw [(idx3 t).2]; omega

/-- The rows of the features the body slices out at point `t`. -/
theorem featTile_apply (t : Fin cfg0.N) (x1 : Vec F S8192x256 .bf16) (q : Fin 2048) (k : Fin 256) :
    xtile (grid0.coords t) x1 (ix2 q k) = x1 (ix2 (colN (t.val % 4) q) k) := by
  have h16 := lt16 t
  show x1 _ = x1 _
  congr 1
  funext a
  apply Fin.ext
  match a with
  | ⟨0, _⟩ =>
    show k0_off1 (grid0.coords t) 0 + 1 * q.val = (colN (t.val % 4) q).val
    rw [(off1 t).1, colN_val _ (by omega)]; omega
  | ⟨1, _⟩ =>
    show k0_off1 (grid0.coords t) 1 + 1 * k.val = k.val
    rw [(off1 t).2]; omega

/-! ## Three of the arrays, from the arguments -/

/-- The features the kernel is launched on are the first argument: a change of float format only. -/
theorem featArr_eq (c : Dev nD) :
    featArr m c = truncf .bf16 (m ((c : Thread nD τ).loc main_arg0)) bitsLt_bf16_f32 := by
  dsimp only [featArr, V, hostOps0]; after_results

/-- The weight tile is the second argument transposed, in the narrower format. -/
theorem wtArr_eq (c : Dev nD) :
    wtArr m c = truncf .bf16 (transpose S256x256 [1, 0] (m ((c : Thread nD τ).loc main_arg2)) transposes_S256x256_S256x256_1_0) bitsLt_bf16_f32 := by
  dsimp only [wtArr, V, hostOps0]; after_results

/-- Entry `(k, o)` of the weight tile is entry `(o, k)` of the second argument. -/
theorem wtArr_apply (m : (ℓ : Loc nD τ sig) → Buf (Elt Ideal) ℓ) (c : Dev nD) (k o : Fin 256) :
    (wtArr m c (ix2 k o) : EReal) = (m ((c : Thread nD τ).loc main_arg2) (ix2 o k) : EReal) := by
  rw [wtArr_eq]
  show transpose S256x256 [1, 0] (m ((c : Thread nD τ).loc main_arg2)) transposes_S256x256_S256x256_1_0 (ix2 k o) = _
  exact transpose_apply [1, 0] _ transposes_S256x256_S256x256_1_0 (ix2 k o) (ix2 o k) (fun b => match b with
    | ⟨0, _⟩ => rfl
    | ⟨1, _⟩ => rfl)

/-- The bias row is the third argument laid out as one row. -/
theorem biasArr_apply (c : Dev nD) (o : Fin 256) :
    biasArr m c (ix2 (0 : Fin 1) o) = m ((c : Thread nD τ).loc main_arg3) (ix1 o) := by
  dsimp only [biasArr, V, hostOps0]; after_results
  show shapeCast S1x256 (m ((c : Thread nD τ).loc main_arg3)) shapeCasts_S256_S1x256 (ix2 (0 : Fin 1) o) = _
  exact shapeCast_apply _ shapeCasts_S256_S1x256 (ix2 (0 : Fin 1) o) (ix1 o)
    (by rewrite [Shape.rowMajor_val_two, Shape.rowMajor_val_one]; show o.val = 0 * 256 + o.val; omega)

end Cert.KernelIdeal.Blocks

end
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.PayloadAt.lean ====
import proofs.«422402_j46213848105055_3_alg».proof.Proof.Gen.KernelIdeal.Skeleton
import proofs.«422402_j46213848105055_3_alg».proof.Proof.LibKeepdims
import Idealize.ShloMosaic.Lib.ValueIdx
import Idealize.ShloMosaic.Lib.Pipeline.Value
import Idealize.ShloMosaic.PureOps.Ideal.Laws
import Idealize.ShloMosaic.Lib.ValueLayout

/-!
  The values the kernel body stores, read at an index, at the ideal values (every float is an extended real,
  no rounding). Each stored vector is a short chain of pointwise operations, layout operations and at most one
  contraction; read at the row p and the column k it is a closed expression in the entries of the vectors the
  body loaded before it:

  * the two resets of the accumulators are 0 everywhere;
  * the accumulation step adds to the accumulator the product of the adjacency tile and the feature tile,
    acc (p, k) + ∑ q, A (p, q) * X (q, k);
  * the degree step adds to the degree column the row sum of the adjacency tile, deg (p) + ∑ q, A (p, q);
  * on a diagonal tile the node's own features and the constant 1 are added;
  * the last step divides by the degree, multiplies by the weight tile and adds the bias row,
    (∑ k, acc (p, k) / deg (p) * W (k, o)) + b (o).
-/

noncomputable section

namespace Cert.KernelIdeal.PayloadAt

open Cert.KernelIdeal Cert.KernelIdeal.Gen Idealize.ShloMosaic Idealize.ShloMosaic.ValueIdx

/-! ## The word of the float 1.0 -/

/-- The binary32 pattern 0x3F800000 has sign bit 0, exponent field 127 and fraction 0: a normal number,
    (2 ^ 23 + 0) * 2 ^ (127 - 127 - 23) = 1. -/
theorem ofBits_one_f32 : Ideal.ofBits .f32 0x3F800000#32 = 1 := by
  have hsign : ((0x3F800000#32 : BitVec 32).extractLsb' (8 + 23) 1 == 1#1) = false := by decide
  have hexp : ((0x3F800000#32 : BitVec 32).extractLsb' 23 8).toNat = 127 := by decide
  have hfrac : ((0x3F800000#32 : BitVec 32).extractLsb' 0 23).toNat = 0 := by decide
  show Ideal.ieee 8 23 (0x3F800000#32 : BitVec 32) = 1
  unfold Ideal.ieee
  simp only [hsign, hexp, hfrac]
  norm_num

/-! ## The two resets -/

/-- The reset of the feature accumulator is 0 at every index. -/
theorem pay1_apply (i : S2048x256.Idx) : (k0_pay1 (F := Ideal) i : EReal) = 0 := by
  unfold k0_pay1
  refine (congrFun (shapeCast_self _ _) i).trans ?_
  exact Ideal.ofBits_zero_f32

/-- The reset of the degree accumulator is 0 at every index. -/
theorem pay2_apply (i : S2048x128.Idx) : (k0_pay2 (F := Ideal) i : EReal) = 0 := by
  unfold k0_pay2
  refine (congrFun (shapeCast_self _ _) i).trans ?_
  exact Ideal.ofBits_zero_f32

/-! ## The adjacency tile times the feature tile

The contraction runs over the adjacency tile's column and the feature tile's row: at the output index (p, k)
and the contraction coordinate q the left operand is read at (p, q) and the right one at (q, k). The four
statements below say so one axis at a time. -/

theorem lhs_adj_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem lhs_adj_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem rhs_adj_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem rhs_adj_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- The product of a [2048, 2048] tile and a [2048, 256] tile into the zero accumulator, read at (p, k):
    the sum over q of the entries (p, q) times (q, k). -/
theorem matmul_adj_apply (a : FVec Ideal S2048x2048 .bf16) (b : FVec Ideal S2048x256 .bf16) (p : Fin 2048) (k : Fin 256) :
    matmul dot_S2048x2048_S2048x256_S2048x256_1_0_0_1_n_n none a b (constant (F := Ideal) S2048x256 .f32 0x00000000#32) (ix2 p k)
      = ∑ q : Fin 2048, a (ix2 p q) * b (ix2 q k) := by
  simp only [matmul]
  rw [Ideal.matmul_constant_zero_apply, ← Equiv.sum_comp (contrEquiv1 dot_S2048x2048_S2048x256_S2048x256_1_0_0_1_n_n 2048 rfl rfl).symm]
  refine Finset.sum_congr rfl fun q _ => ?_
  have hk := contrEquiv1_symm_val dot_S2048x2048_S2048x256_S2048x256_1_0_0_1_n_n 2048 rfl rfl q
  have el : dot_S2048x2048_S2048x256_S2048x256_1_0_0_1_n_n.lhsIdx (ix2 p k) ((contrEquiv1 dot_S2048x2048_S2048x256_S2048x256_1_0_0_1_n_n 2048 rfl rfl).symm q) = ix2 p q := funext fun a => Fin.ext (by
    match a with
    | ⟨0, _⟩ => exact lhs_adj_0 _ _
    | ⟨1, _⟩ => exact (lhs_adj_1 _ _).trans hk)
  have er : dot_S2048x2048_S2048x256_S2048x256_1_0_0_1_n_n.rhsIdx (ix2 p k) ((contrEquiv1 dot_S2048x2048_S2048x256_S2048x256_1_0_0_1_n_n 2048 rfl rfl).symm q) = ix2 q k := funext fun a => Fin.ext (by
    match a with
    | ⟨0, _⟩ => exact (rhs_adj_0 _ _).trans hk
    | ⟨1, _⟩ => exact rhs_adj_1 _ _)
  rw [el, er]

/-- The accumulation step: the accumulator plus the adjacency tile times the feature tile. -/
theorem pay5_apply (v3 : Vec Ideal S2048x2048 .bf16) (v8 : Vec Ideal S2048x256 .bf16) (v10 : Vec Ideal S2048x256 .f32) (p : Fin 2048) (k : Fin 256) :
    (k0_pay5 (F := Ideal) v3 v8 v10 (ix2 p k) : EReal) = (v10 (ix2 p k) : EReal) + ∑ q : Fin 2048, (v3 (ix2 p q) : EReal) * (v8 (ix2 q k) : EReal) := by
  unfold k0_pay5 k0_pay3 k0_pay4
  refine (congrFun (shapeCast_self _ _) (ix2 p k)).trans ?_
  refine (addf_apply _ _ _).trans ?_
  refine congrArg (v10 (ix2 p k) + ·) ?_
  refine (matmul_adj_apply _ _ p k).trans ?_
  rw [shapeCast_self, shapeCast_self]

/-! ## The degree column -/

/-- The degree step: the degree column plus the row sums of the adjacency tile. -/
theorem pay6_apply (v3 : Vec Ideal S2048x2048 .bf16) (v16 : Vec Ideal S2048x1 .f32) (p : Fin 2048) :
    (k0_pay6 (F := Ideal) v3 v16 (ix2 p (0 : Fin 1)) : EReal) = (v16 (ix2 p (0 : Fin 1)) : EReal) + ∑ q : Fin 2048, (v3 (ix2 p q) : EReal) := by
  unfold k0_pay6 k0_pay3
  refine (congrFun (shapeCast_self _ _) (ix2 p (0 : Fin 1))).trans ?_
  refine (addf_apply _ _ _).trans ?_
  refine congrArg (v16 (ix2 p (0 : Fin 1)) + ·) ?_
  refine (shapeCast_a_a1_apply _ _ p (0 : Fin 1)).trans ?_
  refine (rowSum_apply _ _ _ _ p).trans ?_
  refine Finset.sum_congr rfl fun q _ => ?_
  refine (extf_apply (φ := .bf16) (ψ := .f32) _ _ _).trans ?_
  rw [shapeCast_self]

/-! ## The self-loop on a diagonal tile -/

/-- On a diagonal tile the node's own features are added to the accumulator. -/
theorem pay7_apply (v8 : Vec Ideal S2048x256 .bf16) (v30 : Vec Ideal S2048x256 .f32) (p : Fin 2048) (k : Fin 256) :
    (k0_pay7 (F := Ideal) v8 v30 (ix2 p k) : EReal) = (v30 (ix2 p k) : EReal) + (v8 (ix2 p k) : EReal) := by
  unfold k0_pay7 k0_pay4
  refine (congrFun (shapeCast_self _ _) (ix2 p k)).trans ?_
  refine (addf_apply _ _ _).trans ?_
  refine congrArg (v30 (ix2 p k) + ·) ?_
  refine (extf_apply (φ := .bf16) (ψ := .f32) _ _ _).trans ?_
  rw [shapeCast_self]

/-- On a diagonal tile the self-loop adds 1 to the degree. -/
theorem pay8_apply (v36 : Vec Ideal S2048x1 .f32) (p : Fin 2048) :
    (k0_pay8 (F := Ideal) v36 (ix2 p (0 : Fin 1)) : EReal) = (v36 (ix2 p (0 : Fin 1)) : EReal) + 1 := by
  unfold k0_pay8
  refine (congrFun (shapeCast_self _ _) (ix2 p (0 : Fin 1))).trans ?_
  refine (addf_apply _ _ _).trans ?_
  exact congrArg (v36 (ix2 p (0 : Fin 1)) + ·) ofBits_one_f32

/-! ## The normalized accumulator times the weight tile

The second contraction runs over the normalized tile's column and the weight tile's row. -/

theorem lhs_wt_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_wt_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_wt_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_wt_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product of a [2048, 256] tile and a [256, 256] tile into the zero accumulator, read at (p, o):
    the sum over k of the entries (p, k) times (k, o). -/
theorem matmul_wt_apply (a : FVec Ideal S2048x256 .bf16) (b : FVec Ideal S256x256 .bf16) (p : Fin 2048) (o : Fin 256) :
    matmul dot_S2048x256_S256x256_S2048x256_1_0_0_1_n_n none a b (constant (F := Ideal) S2048x256 .f32 0x00000000#32) (ix2 p o)
      = ∑ k : Fin 256, a (ix2 p k) * b (ix2 k o) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p o) ((contrEquiv1 dot_S2048x256_S256x256_S2048x256_1_0_0_1_n_n 256 rfl rfl).symm k) = ix2 p k := funext fun a => Fin.ext (by
    match a with
    | ⟨0, _⟩ => exact lhs_wt_0 _ _
    | ⟨1, _⟩ => exact (lhs_wt_1 _ _).trans hk)
  have er : dot_S2048x256_S256x256_S2048x256_1_0_0_1_n_n.rhsIdx (ix2 p o) ((contrEquiv1 dot_S2048x256_S256x256_S2048x256_1_0_0_1_n_n 256 rfl rfl).symm k) = ix2 k o := funext fun a => Fin.ext (by
    match a with
    | ⟨0, _⟩ => exact (rhs_wt_0 _ _).trans hk
    | ⟨1, _⟩ => exact rhs_wt_1 _ _)
  rw [el, er]

/-- The last step: the accumulator divided by the degree, times the weight tile, plus the bias row. -/
theorem pay9_apply (v30 : Vec Ideal S2048x1 .f32) (v31 : Vec Ideal S2048x256 .f32) (v35 : Vec Ideal S256x256 .bf16) (v38 : Vec Ideal S1x256 .f32) (p : Fin 2048) (o : Fin 256) :
    (k0_pay9 (F := Ideal) v30 v31 v35 v38 (ix2 p o) : EReal)
      = (∑ k : Fin 256, Ideal.div (v31 (ix2 p k) : EReal) (v30 (ix2 p (0 : Fin 1)) : EReal) * (v35 (ix2 k o) : EReal)) + (v38 (ix2 (0 : Fin 1) o) : EReal) := by
  unfold k0_pay9
  refine (addf_apply _ _ _).trans ?_
  refine congrArg₂ (· + ·) ?_ ?_
  · refine (matmul_wt_apply _ _ p o).trans ?_
    refine Finset.sum_congr rfl fun k _ => ?_
    refine congrArg₂ (· * ·) ?_ ?_
    · refine (truncf_apply (φ := .f32) (ψ := .bf16) _ _ _).trans ?_
      refine (divf_apply _ _ _).trans ?_
      exact congrArg (Ideal.div (v31 (ix2 p k))) (broadcastTo_a1_ab_apply _ _ p k)
    · rw [shapeCast_self]
  · refine (broadcastTo_1b_ab_apply _ _ p o).trans ?_
    rw [shapeCast_self]

end Cert.KernelIdeal.PayloadAt

end
-- ==== Proof.KInvariant.lean ====
/-
  What the two accumulators hold after every grid point, and what the last column tile writes out.

  Row tile `i = t / 4`, column tile `j = t % 4`.  After point `t` the feature accumulator holds, at local row `p`
  and channel `k`, the contributions of column tiles `0 … j` to row `2048 i + p`, plus that row's own feature once
  the diagonal tile `j = i` has been passed; the degree column holds the row sums of the same tiles, plus one
  likewise.  The first column tile starts both from zero.  By induction over the points, each point one of the
  six control cases.
-/
import proofs.«422402_j46213848105055_3_alg».proof.Proof.Gen.KernelIdeal.Frame
import proofs.«422402_j46213848105055_3_alg».proof.Proof.KPieces
import proofs.«422402_j46213848105055_3_alg».proof.Proof.KBlocks
import proofs.«422402_j46213848105055_3_alg».proof.Proof.PayloadAt
import proofs.«422402_j46213848105055_3_alg».proof.Proof.GcnTiles

noncomputable section

namespace Cert.KernelIdeal.Inv

open Cert.KernelIdeal Cert.KernelIdeal.Gen Cert.KernelIdeal.Pieces Cert.KernelIdeal.Blocks Cert.KernelIdeal.PayloadAt
open Cert.Gcn Cert.GcnMath
open Idealize.ShloMosaic Idealize.ShloMosaic.TcCoe Idealize.SL.Sem Idealize.ShloMosaic.ValueIdx

variable (m : (ℓ : Loc nD τ sig) → Buf (Elt Ideal) ℓ) (c : Dev nD)

/-- The adjacency and the features the launch finds, as arrays of extended reals. -/
abbrev A : (⟨2, ![8192, 8192]⟩ : Shape).Idx → EReal := adjArr m c
abbrev X : (⟨2, ![8192, 256]⟩ : Shape).Idx → EReal := featArr m c

theorem prevLt (t : Fin cfg0.N) : t.val - 1 < cfg0.N := Nat.lt_of_le_of_lt (Nat.sub_le _ _) t.isLt

/-! ## Each case, as arrays -/

theorem step_A (t : Fin cfg0.N) (h0 : t.val % 4 = 0) (h1 : t.val % 5 = 0) (h2 : ¬t.val % 4 = 3) :
    (outsAt0 m c t.val t.isLt).2.1 = k0_pay7 (xtile (grid0.coords t) (iblk m c 1 t)) (k0_pay5 (iblk m c 0 t) (xtile (grid0.coords t) (iblk m c 1 t)) (k0_pay1 (F := Ideal)))
    ∧ degCol (outsAt0 m c t.val t.isLt).2.2 = k0_pay8 (k0_pay6 (iblk m c 0 t) (degCol (k0_pay2 (F := Ideal)))) := by
  rw [outsAt0_A m c t h0 h1 h2]
  dsimp only
  exact ⟨acc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) ((hcond0_1 t).mpr h1) (fun h => h2 ((hcond0_2 t).mp h)),
    deg_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) ((hcond0_1 t).mpr h1) (fun h => h2 ((hcond0_2 t).mp h))⟩

theorem step_D (t : Fin cfg0.N) (h0 : t.val % 4 = 0) (h1 : ¬t.val % 5 = 0) (h2 : ¬t.val % 4 = 3) :
    (outsAt0 m c t.val t.isLt).2.1 = k0_pay5 (iblk m c 0 t) (xtile (grid0.coords t) (iblk m c 1 t)) (k0_pay1 (F := Ideal))
    ∧ degCol (outsAt0 m c t.val t.isLt).2.2 = k0_pay6 (iblk m c 0 t) (degCol (k0_pay2 (F := Ideal))) := by
  rw [outsAt0_D m c t h0 h1 h2]
  dsimp only
  exact ⟨acc_D (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)) (fun h => h2 ((hcond0_2 t).mp h)),
    deg_D (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)) (fun h => h2 ((hcond0_2 t).mp h))⟩

theorem step_B (t : Fin cfg0.N) (h0 : ¬t.val % 4 = 0) (h1 : ¬t.val % 5 = 0) (h2 : ¬t.val % 4 = 3) :
    (outsAt0 m c t.val t.isLt).2.1 = k0_pay5 (iblk m c 0 t) (xtile (grid0.coords t) (iblk m c 1 t)) (outsAt0 m c (t.val - 1) (prevLt t)).2.1
    ∧ degCol (outsAt0 m c t.val t.isLt).2.2 = k0_pay6 (iblk m c 0 t) (degCol (outsAt0 m c (t.val - 1) (prevLt t)).2.2) := by
  rw [outsAt0_B m c t h0 h1 h2]
  dsimp only
  exact ⟨acc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) (fun h => h1 ((hcond0_1 t).mp h)) (fun h => h2 ((hcond0_2 t).mp h)),
    deg_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) (fun h => h1 ((hcond0_1 t).mp h)) (fun h => h2 ((hcond0_2 t).mp h))⟩

theorem step_C (t : Fin cfg0.N) (h0 : ¬t.val % 4 = 0) (h1 : ¬t.val % 5 = 0) (h2 : t.val % 4 = 3) :
    (outsAt0 m c t.val t.isLt).2.1 = k0_pay5 (iblk m c 0 t) (xtile (grid0.coords t) (iblk m c 1 t)) (outsAt0 m c (t.val - 1) (prevLt t)).2.1
    ∧ degCol (outsAt0 m c t.val t.isLt).2.2 = k0_pay6 (iblk m c 0 t) (degCol (outsAt0 m c (t.val - 1) (prevLt t)).2.2) := by
  rw [outsAt0_C m c t h0 h1 h2]
  dsimp only
  exact ⟨acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) (fun h => h1 ((hcond0_1 t).mp h)) ((hcond0_2 t).mpr h2),
    deg_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) (fun h => h1 ((hcond0_1 t).mp h)) ((hcond0_2 t).mpr h2)⟩

theorem step_E (t : Fin cfg0.N) (h0 : ¬t.val % 4 = 0) (h1 : t.val % 5 = 0) (h2 : ¬t.val % 4 = 3) :
    (outsAt0 m c t.val t.isLt).2.1 = k0_pay7 (xtile (grid0.coords t) (iblk m c 1 t)) (k0_pay5 (iblk m c 0 t) (xtile (grid0.coords t) (iblk m c 1 t)) (outsAt0 m c (t.val - 1) (prevLt t)).2.1)
    ∧ degCol (outsAt0 m c t.val t.isLt).2.2 = k0_pay8 (k0_pay6 (iblk m c 0 t) (degCol (outsAt0 m c (t.val - 1) (prevLt t)).2.2)) := by
  rw [outsAt0_E m c t h0 h1 h2]
  dsimp only
  exact ⟨acc_E (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) ((hcond0_1 t).mpr h1) (fun h => h2 ((hcond0_2 t).mp h)),
    deg_E (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) ((hcond0_1 t).mpr h1) (fun h => h2 ((hcond0_2 t).mp h))⟩

theorem step_F (t : Fin cfg0.N) (h0 : ¬t.val % 4 = 0) (h1 : t.val % 5 = 0) (h2 : t.val % 4 = 3) :
    (outsAt0 m c t.val t.isLt).2.1 = k0_pay7 (xtile (grid0.coords t) (iblk m c 1 t)) (k0_pay5 (iblk m c 0 t) (xtile (grid0.coords t) (iblk m c 1 t)) (outsAt0 m c (t.val - 1) (prevLt t)).2.1)
    ∧ degCol (outsAt0 m c t.val t.isLt).2.2 = k0_pay8 (k0_pay6 (iblk m c 0 t) (degCol (outsAt0 m c (t.val - 1) (prevLt t)).2.2)) := by
  rw [outsAt0_F m c t h0 h1 h2]
  dsimp only
  exact ⟨acc_F (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) ((hcond0_1 t).mpr h1) ((hcond0_2 t).mpr h2),
    deg_F (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) ((hcond0_1 t).mpr h1) ((hcond0_2 t).mpr h2)⟩

/-! ## The last column tile's output, from that point's own accumulators -/

theorem out_C (t : Fin cfg0.N) (h0 : ¬t.val % 4 = 0) (h1 : ¬t.val % 5 = 0) (h2 : t.val % 4 = 3) :
    (outsAt0 m c t.val t.isLt).1
      = k0_pay9 (degCol (outsAt0 m c t.val t.isLt).2.2) (outsAt0 m c t.val t.isLt).2.1 (iblk m c 2 t) (iblk m c 3 t) := by
  rw [(step_C m c t h0 h1 h2).1, (step_C m c t h0 h1 h2).2, outsAt0_C m c t h0 h1 h2]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) (fun h => h1 ((hcond0_1 t).mp h)) ((hcond0_2 t).mpr h2)

theorem out_F (t : Fin cfg0.N) (h0 : ¬t.val % 4 = 0) (h1 : t.val % 5 = 0) (h2 : t.val % 4 = 3) :
    (outsAt0 m c t.val t.isLt).1
      = k0_pay9 (degCol (outsAt0 m c t.val t.isLt).2.2) (outsAt0 m c t.val t.isLt).2.1 (iblk m c 2 t) (iblk m c 3 t) := by
  rw [(step_F m c t h0 h1 h2).1, (step_F m c t h0 h1 h2).2, outsAt0_F m c t h0 h1 h2]
  dsimp only
  exact Pieces.out_F (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (prevLt t)).2.1 (outsAt0 m c (t.val - 1) (prevLt t)).2.2 (fun h => h0 ((hcond0_0 t).mp h)) ((hcond0_1 t).mpr h1) ((hcond0_2 t).mpr h2)

/-- On the last column tile the output block is the quotient of the point's accumulators through the linear layer. -/
theorem out_last (t : Fin cfg0.N) (h2 : t.val % 4 = 3) :
    (outsAt0 m c t.val t.isLt).1
      = k0_pay9 (degCol (outsAt0 m c t.val t.isLt).2.2) (outsAt0 m c t.val t.isLt).2.1 (iblk m c 2 t) (iblk m c 3 t) := by
  have h0 : ¬t.val % 4 = 0 := by omega
  by_cases h1 : t.val % 5 = 0
  · exact out_F m c t h0 h1 h2
  · exact out_C m c t h0 h1 h2

/-! ## The steps, entry by entry -/

/-- Adding the tile product adds tile `n % 4`'s contribution to row `2048 (n / 4) + p`. -/
theorem num_step (n : ℕ) (hn : n < cfg0.N) (prev : Vec Ideal S2048x256 .f32) (p : Fin 2048) (k : Fin 256) :
    (k0_pay5 (F := Ideal) (iblk m c 0 (⟨n, hn⟩ : Fin cfg0.N)) (xtile (grid0.coords (⟨n, hn⟩ : Fin cfg0.N)) (iblk m c 1 (⟨n, hn⟩ : Fin cfg0.N))) prev (ix2 p k) : EReal)
      = (prev (ix2 p k) : EReal) + tileNum (A m c) (X m c) (colN (n / 4) p) k (n % 4) := by
  refine (pay5_apply _ _ _ p k).trans ?_
  refine congrArg ((prev (ix2 p k) : EReal) + ·) ?_
  refine Finset.sum_congr rfl fun q _ => ?_
  exact congrArg₂ (· * ·) (adjTile_apply m c (⟨n, hn⟩ : Fin cfg0.N) p q)
    ((featTile_apply (⟨n, hn⟩ : Fin cfg0.N) _ q k).trans (congrFun (featRes_eq m c (⟨n, hn⟩ : Fin cfg0.N)) _))

/-- Adding the tile's row sums adds tile `n % 4`'s contribution to the row's degree. -/
theorem deg_step (n : ℕ) (hn : n < cfg0.N) (d : Vec Ideal S2048x1 .f32) (p : Fin 2048) :
    (k0_pay6 (F := Ideal) (iblk m c 0 (⟨n, hn⟩ : Fin cfg0.N)) d (ix2 p (0 : Fin 1)) : EReal)
      = (d (ix2 p (0 : Fin 1)) : EReal) + tileDeg (A m c) (colN (n / 4) p) (n % 4) := by
  refine (pay6_apply _ _ p).trans ?_
  refine congrArg ((d (ix2 p (0 : Fin 1)) : EReal) + ·) ?_
  exact Finset.sum_congr rfl fun q _ => adjTile_apply m c (⟨n, hn⟩ : Fin cfg0.N) p q

/-- The self-loop step adds the feature of row `2048 (n % 4) + p`: on the diagonal, the row's own. -/
theorem self_step (n : ℕ) (hn : n < cfg0.N) (v : Vec Ideal S2048x256 .f32) (p : Fin 2048) (k : Fin 256) :
    (k0_pay7 (F := Ideal) (xtile (grid0.coords (⟨n, hn⟩ : Fin cfg0.N)) (iblk m c 1 (⟨n, hn⟩ : Fin cfg0.N))) v (ix2 p k) : EReal)
      = (v (ix2 p k) : EReal) + X m c (ix2 (colN (n % 4) p) k) := by
  refine (pay7_apply _ _ p k).trans ?_
  exact congrArg ((v (ix2 p k) : EReal) + ·)
    ((featTile_apply (⟨n, hn⟩ : Fin cfg0.N) _ p k).trans (congrFun (featRes_eq m c (⟨n, hn⟩ : Fin cfg0.N)) _))

theorem zero_acc (p : Fin 2048) (k : Fin 256) : (k0_pay1 (F := Ideal) (ix2 p k) : EReal) = 0 := pay1_apply _

theorem zero_deg (p : Fin 2048) : (degCol (F := Ideal) (k0_pay2 (F := Ideal)) (ix2 p (0 : Fin 1)) : EReal) = 0 := pay2_apply _

/-! ## The points after the first, by what they take from the point before -/

/-- Off the diagonal, past the first column tile. -/
theorem carry_off (n : ℕ) (hn : n + 1 < cfg0.N) (h0 : ¬(n + 1) % 4 = 0) (h1 : ¬(n + 1) % 5 = 0) :
    (outsAt0 m c (n + 1) hn).2.1
        = k0_pay5 (iblk m c 0 (⟨n + 1, hn⟩ : Fin cfg0.N)) (xtile (grid0.coords (⟨n + 1, hn⟩ : Fin cfg0.N)) (iblk m c 1 (⟨n + 1, hn⟩ : Fin cfg0.N))) (outsAt0 m c n (Nat.lt_of_succ_lt hn)).2.1
    ∧ degCol (outsAt0 m c (n + 1) hn).2.2
        = k0_pay6 (iblk m c 0 (⟨n + 1, hn⟩ : Fin cfg0.N)) (degCol (outsAt0 m c n (Nat.lt_of_succ_lt hn)).2.2) := by
  by_cases h2 : (n + 1) % 4 = 3
  · exact step_C m c (⟨n + 1, hn⟩ : Fin cfg0.N) h0 h1 h2
  · exact step_B m c (⟨n + 1, hn⟩ : Fin cfg0.N) h0 h1 h2

/-- On the diagonal, past the first column tile. -/
theorem carry_diag (n : ℕ) (hn : n + 1 < cfg0.N) (h0 : ¬(n + 1) % 4 = 0) (h1 : (n + 1) % 5 = 0) :
    (outsAt0 m c (n + 1) hn).2.1
        = k0_pay7 (xtile (grid0.coords (⟨n + 1, hn⟩ : Fin cfg0.N)) (iblk m c 1 (⟨n + 1, hn⟩ : Fin cfg0.N)))
            (k0_pay5 (iblk m c 0 (⟨n + 1, hn⟩ : Fin cfg0.N)) (xtile (grid0.coords (⟨n + 1, hn⟩ : Fin cfg0.N)) (iblk m c 1 (⟨n + 1, hn⟩ : Fin cfg0.N))) (outsAt0 m c n (Nat.lt_of_succ_lt hn)).2.1)
    ∧ degCol (outsAt0 m c (n + 1) hn).2.2
        = k0_pay8 (k0_pay6 (iblk m c 0 (⟨n + 1, hn⟩ : Fin cfg0.N)) (degCol (outsAt0 m c n (Nat.lt_of_succ_lt hn)).2.2)) := by
  by_cases h2 : (n + 1) % 4 = 3
  · exact step_F m c (⟨n + 1, hn⟩ : Fin cfg0.N) h0 h1 h2
  · exact step_E m c (⟨n + 1, hn⟩ : Fin cfg0.N) h0 h1 h2

/-! ## The invariant -/

/-- After point `n` the accumulators hold the tile-by-tile sums of row tile `n / 4` up to column tile `n % 4`. -/
theorem inv : ∀ (n : ℕ) (hn : n < cfg0.N),
    (∀ (p : Fin 2048) (k : Fin 256), ((outsAt0 m c n hn).2.1 (ix2 p k) : EReal)
        = accAt (tileNum (A m c) (X m c) (colN (n / 4) p) k) (X m c (ix2 (colN (n / 4) p) k)) (n / 4) (n % 4))
    ∧ (∀ p : Fin 2048, (degCol (outsAt0 m c n hn).2.2 (ix2 p (0 : Fin 1)) : EReal)
        = accAt (tileDeg (A m c) (colN (n / 4) p)) 1 (n / 4) (n % 4)) := by
  intro n
  induction n with
  | zero =>
    intro hn
    obtain ⟨ha, hd⟩ := step_A m c (⟨0, hn⟩ : Fin cfg0.N) (Nat.zero_mod 4) (Nat.zero_mod 5) (show ¬(0 : ℕ) % 4 = 3 by decide)
    constructor
    · intro p k
      refine (congrFun ha (ix2 p k)).trans ?_
      refine (self_step m c 0 hn _ p k).trans ?_
      rw [num_step m c 0 hn _ p k, zero_acc]
      rfl
    · intro p
      refine (congrFun hd (ix2 p (0 : Fin 1))).trans ?_
      refine (pay8_apply _ p).trans ?_
      rw [deg_step m c 0 hn _ p, zero_deg]
      rfl
  | succ n ih =>
    intro hn
    have hN : n + 1 < 16 := lt_of_lt_of_eq hn (show cfg0.N = 16 from N_0)
    obtain ⟨iha, ihd⟩ := ih (Nat.lt_of_succ_lt hn)
    by_cases h0 : (n + 1) % 4 = 0
    · -- the first column tile of a later row tile: both accumulators restart from zero
      have h1 : ¬(n + 1) % 5 = 0 := by omega
      have h2 : ¬(n + 1) % 4 = 3 := by omega
      have hi : ¬(n + 1) / 4 = 0 := by omega
      obtain ⟨ha, hd⟩ := step_D m c (⟨n + 1, hn⟩ : Fin cfg0.N) h0 h1 h2
      constructor
      · intro p k
        refine (congrFun ha (ix2 p k)).trans ?_
        rw [num_step m c (n + 1) hn _ p k, zero_acc, h0, accAt_zero, accStep, if_neg hi]
      · intro p
        refine (congrFun hd (ix2 p (0 : Fin 1))).trans ?_
        rw [deg_step m c (n + 1) hn _ p, zero_deg, h0, accAt_zero, accStep, if_neg hi]
    · have e1 : (n + 1) / 4 = n / 4 := by omega
      have e2 : (n + 1) % 4 = n % 4 + 1 := by omega
      by_cases h1 : (n + 1) % 5 = 0
      · -- the diagonal tile: the self loop is added after the tile's contribution
        have hij : n / 4 = n % 4 + 1 := by omega
        obtain ⟨ha, hd⟩ := carry_diag m c n hn h0 h1
        constructor
        · intro p k
          refine (congrFun ha (ix2 p k)).trans ?_
          rw [self_step m c (n + 1) hn _ p k, num_step m c (n + 1) hn _ p k, iha p k, e1, e2, accAt_succ, accStep,
            if_pos hij, ← hij]
        · intro p
          refine (congrFun hd (ix2 p (0 : Fin 1))).trans ?_
          rw [pay8_apply _ p, deg_step m c (n + 1) hn _ p, ihd p, e1, e2, accAt_succ, accStep, if_pos hij]
      · have hij : ¬n / 4 = n % 4 + 1 := by omega
        obtain ⟨ha, hd⟩ := carry_off m c n hn h0 h1
        constructor
        · intro p k
          refine (congrFun ha (ix2 p k)).trans ?_
          rw [num_step m c (n + 1) hn _ p k, iha p k, e1, e2, accAt_succ, accStep, if_neg hij]
        · intro p
          refine (congrFun hd (ix2 p (0 : Fin 1))).trans ?_
          rw [deg_step m c (n + 1) hn _ p, ihd p, e1, e2, accAt_succ, accStep, if_neg hij]

/-- The same at a grid point. -/
theorem acc_inv (t : Fin cfg0.N) (p : Fin 2048) (k : Fin 256) :
    ((outsAt0 m c t.val t.isLt).2.1 (ix2 p k) : EReal)
      = accAt (tileNum (A m c) (X m c) (colN (t.val / 4) p) k) (X m c (ix2 (colN (t.val / 4) p) k)) (t.val / 4) (t.val % 4) :=
  (inv m c t.val t.isLt).1 p k

theorem deg_inv (t : Fin cfg0.N) (p : Fin 2048) :
    (degCol (outsAt0 m c t.val t.isLt).2.2 (ix2 p (0 : Fin 1)) : EReal)
      = accAt (tileDeg (A m c) (colN (t.val / 4) p)) 1 (t.val / 4) (t.val % 4) :=
  (inv m c t.val t.isLt).2 p

end Cert.KernelIdeal.Inv

end
-- ==== Proof.KValue.lean ====
/-
  From the kernel's output blocks to its result array.

  The grid is 4 × 4: point `t` has row tile `t / 4` and column tile `t % 4`.  The output window's block of point
  `t` is rows `2048 (t / 4) … 2048 (t / 4) + 2047` of the result, all 256 channels, and it is written back only
  after the row tile's last column tile (`t % 4 = 3`).  There both accumulators are complete, so local row `p`,
  channel `o` of the block is the layer's result at row `2048 (t / 4) + p`: the accumulated numerator over the
  accumulated degree is the row's normalised aggregate, the resident weight tile is the transposed weights and the
  resident bias row is the bias.  Every row lies in exactly one row tile, so the four written blocks cover the
  array and the array ends holding the layer's result.
-/
import proofs.«422402_j46213848105055_3_alg».proof.Proof.Gen.KernelIdeal.Value
import proofs.«422402_j46213848105055_3_alg».proof.Proof.KInvariant
import Idealize.ShloMosaic.Lib.Pipeline.Value

set_option maxRecDepth 16384

noncomputable section

namespace Cert.KernelIdeal.KValue

open Cert.KernelIdeal Cert.KernelIdeal.Gen Cert.KernelIdeal.Value Cert.KernelIdeal.Pieces Cert.KernelIdeal.Blocks
  Cert.KernelIdeal.Inv Cert.KernelIdeal.PayloadAt Cert.Gcn Cert.GcnMath
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's result of the adjacency the launch finds and of the three float arguments. -/
abbrev G (c : Dev nD) : (⟨2, ![8192, 256]⟩ : Shape).Idx → EReal :=
  Cert.Gcn.result (A m c) (m ((c : Thread nD τ).loc main_arg0)) (m ((c : Thread nD τ).loc main_arg2)) (m ((c : Thread nD τ).loc main_arg3))

/-! ## One entry of a written block -/

/-- After a row tile's last column tile, local row `p`, channel `o` of the output block is the layer's result at
    row `2048 (t / 4) + p`, channel `o`. -/
theorem block_entry (c : Dev nD) (t : Fin cfg0.N) (h2 : t.val % 4 = 3) (p : Fin 2048) (o : Fin 256) :
    ((outsAt0 m c t.val t.isLt).1 (ix2 p o) : EReal) = G m c (ix2 (colN (t.val / 4) p) o) := by
  have h16 := lt16 t
  have hi : t.val / 4 < 4 := by omega
  -- the features the launch finds are the first argument (a change of float format is the identity here)
  have hX : X m c = (m ((c : Thread nD τ).loc main_arg0) : (⟨2, ![8192, 256]⟩ : Shape).Idx → EReal) :=
    (featArr_eq m c).trans (funext fun i => rfl)
  -- numerator over degree, both complete after the fourth tile, is the normalised aggregate
  have hagg : ∀ k : Fin 256,
      Ideal.div ((outsAt0 m c t.val t.isLt).2.1 (ix2 p k) : EReal) (degCol (outsAt0 m c t.val t.isLt).2.2 (ix2 p (0 : Fin 1)) : EReal)
        = aggregate (A m c) (m ((c : Thread nD τ).loc main_arg0)) (colN (t.val / 4) p) k := by
    intro k
    rw [acc_inv m c t p k, deg_inv m c t p, h2, aggregate_of_tiles (A m c) (X m c) (colN (t.val / 4) p) k (t.val / 4) hi, hX]
  -- the resident weight tile is the transposed weights, the resident bias row the bias
  have hw : ∀ k : Fin 256, ((iblk m c 2 t : Vec Ideal S256x256 .bf16) (ix2 k o) : EReal)
      = (m ((c : Thread nD τ).loc main_arg2) (ix2 o k) : EReal) :=
    fun k => (congrFun (wtRes_eq m c t) (ix2 k o)).trans (wtArr_apply m c k o)
  have hb : ((iblk m c 3 t : Vec Ideal S1x256 .f32) (ix2 (0 : Fin 1) o) : EReal)
      = (m ((c : Thread nD τ).loc main_arg3) (ix1 o) : EReal) :=
    (congrFun (biasRes_eq m c t) (ix2 (0 : Fin 1) o)).trans (biasArr_apply m c o)
  refine (congrFun (out_last m c t h2) (ix2 p o)).trans ?_
  refine (pay9_apply _ _ _ _ p o).trans ?_
  refine Eq.trans ?_ (Cert.Gcn.result_apply _ _ _ _ (colN (t.val / 4) p) o).symm
  refine congrArg₂ (· + ·) (Finset.sum_congr rfl fun k _ => ?_) hb
  exact congrArg₂ (· * ·) (hagg k) (hw k)

/-! ## What a flushing point writes back -/

/-- A point that writes back writes its block of the layer's result: the block's row `p` is row
    `(t / 4) · 2048 + p` of the array, its channels the array's. -/
theorem flushed_eq (c : Dev nD) (t : Fin cfg0.N) (hf : (cfg0.win 4).flush t = true) :
    (dats m 0 c).flushed 4 t = ((cfg0.win 4).blk t).view.read (Elt Ideal) (G m c) := by
  have h2 : t.val % 4 = 3 := (flush0_4 t).mp hf
  have h16 := lt16 t
  obtain ⟨e0, e1⟩ := idx4 t
  rw [flushed4]
  refine funext fun (j : S2048x256.Idx) => ?_
  obtain ⟨p, o, rfl⟩ : ∃ (p : Fin 2048) (o : Fin 256), j = ix2 p o := ⟨j 0, j 1, eq_ix2 j⟩
  show ((outsAt0 m c t.val t.isLt).1 (ix2 p o) : EReal) = G m c (((cfg0.win 4).blk t).view.emb (ix2 p o))
  refine (block_entry m c t h2 p o).trans (congrArg (G m c) ?_)
  funext a
  apply Fin.ext
  match a with
  | ⟨0, _⟩ =>
    show (colN (t.val / 4) p).val = win0_4.index t (0 : Fin 2) * 2048 + 1 * p.val
    rw [e0, colN_val _ (by omega)]; omega
  | ⟨1, _⟩ =>
    show o.val = win0_4.index t (1 : Fin 2) * 256 + 1 * o.val
    rw [e1]; omega

/-! ## The written blocks cover the array -/

/-- An index of the array is in point `t`'s block iff each coordinate is in the block's range on its axis. -/
theorem mem_block (t : Fin cfg0.N) (i : S8192x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v24).slice (win0_4.rect t)).set ↔ _
  rw [View.set_slice_whole, Rect.mem_set_unit]
  exact Iff.rfl

/-- Row `r` is written by the last column tile of row tile `r / 2048`: point `4 (r / 2048) + 3`. -/
theorem covered (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 16 := N_0
  have hlt : 4 * ((i 0).val / 2048) + 3 < cfg0.N := lt_of_lt_of_eq (by omega) hN.symm
  have hflush : (cfg0.win 4).flush ⟨4 * ((i 0).val / 2048) + 3, hlt⟩ = true :=
    (flush0_4 ⟨4 * ((i 0).val / 2048) + 3, hlt⟩).mpr (by show (4 * ((i 0).val / 2048) + 3) % 4 = 3; omega)
  refine ⟨⟨4 * ((i 0).val / 2048) + 3, hlt⟩, hflush, ?_⟩
  rw [mem_block]
  obtain ⟨e0, e1⟩ := idx4 ⟨4 * ((i 0).val / 2048) + 3, hlt⟩
  intro a
  match a with
  | ⟨0, _⟩ =>
    show win0_4.index ⟨4 * ((i 0).val / 2048) + 3, hlt⟩ (0 : Fin 2) * 2048 ≤ (i 0).val
      ∧ (i 0).val < win0_4.index ⟨4 * ((i 0).val / 2048) + 3, hlt⟩ (0 : Fin 2) * 2048 + 2048
    rw [e0]
    show (4 * ((i 0).val / 2048) + 3) / 4 * 2048 ≤ (i 0).val ∧ (i 0).val < (4 * ((i 0).val / 2048) + 3) / 4 * 2048 + 2048
    omega
  | ⟨1, _⟩ =>
    show win0_4.index ⟨4 * ((i 0).val / 2048) + 3, hlt⟩ (1 : Fin 2) * 256 ≤ (i 1).val
      ∧ (i 1).val < win0_4.index ⟨4 * ((i 0).val / 2048) + 3, hlt⟩ (1 : Fin 2) * 256 + 256
    rw [e1]; omega

/-! ## The array after the run, and the run -/

/-- The result array ends holding the layer's result. -/
theorem final (c : Dev nD) : (dats m 0 c).arrAt 4 cfg0.N = G m c :=
  (dats m 0 c).arrAt_eq_of_cover 4 (G m c) (fun t hf => flushed_eq m c t hf) (covered)

/-- The kernel's run: the result array at the layer's result, the four arguments unchanged. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.RefValue.lean ====
/-
  The reference's value, read stage by stage.

  The reference builds a dense adjacency `A` by scattering ones into zeros, adds the identity matrix, divides every
  row by its sum, multiplies by the features, then applies the linear layer and the bias.  Here: every entry of the
  scattered adjacency is 0 or 1; the identity matrix's entry at `(r, c)` is the real `if c = r then 1 else 0`; and,
  for finite features, "normalise each row, then multiply" is "multiply, add the node's own features, then divide
  by the degree with the self loop counted", so the reference's result is the layer's function of `A`.
-/
import proofs.«422402_j46213848105055_3_alg».proof.Proof.Gen.ReferenceIdeal.Read
import proofs.«422402_j46213848105055_3_alg».proof.Proof.GcnMath
import proofs.«422402_j46213848105055_3_alg».proof.Proof.GcnSpec
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The scattered adjacency -/

/-- The word `0x3F800000` denotes the real 1: exponent field 127 (the bias), significand field 0. -/
theorem one_word : Ideal.ofBits .f32 0x3F800000#32 = (1 : EReal) := by
  simp [Ideal.ofBits, Ideal.ieee, -EReal.coe_mul]
  norm_num

/-- every entry of the scattered adjacency is 0 or 1 -/
theorem adj_zero_or_one (x1 : (⟨S2x262144, .i32⟩ : BufTy).Contents (Elt Ideal)) (i : S8192x8192.Idx) :
    (val_main_v19 (F := Ideal) x1 i : EReal) = 0 ∨ (val_main_v19 (F := Ideal) x1 i : EReal) = 1 := by
  unfold val_main_v19
  refine Cert.GcnMath.scatter_overwrite_forall _ _ _ _ (fun e : EReal => e = 0 ∨ e = 1) ?_ ?_ i
  · intro j
    refine Or.inl ?_
    rw [val_main_v0_apply, val_main_cst_apply]
    exact Ideal.ofBits_zero_f32
  · intro j
    refine Or.inr ?_
    rw [val_main_v18_apply, val_main_cst_3_apply]
    exact one_word

/-! ## The identity matrix -/

/-- Two coordinates below 8192 are equal when their 32-bit words are. -/
theorem word_inj (r c : Fin 8192) (h : BitVec.ofNat 32 r.val = BitVec.ofNat 32 c.val) : r = c := by
  have h' := congrArg BitVec.toNat h
  simp only [BitVec.toNat_ofNat] at h'
  have hr := r.isLt
  have hc := c.isLt
  exact Fin.ext (by omega)

/-- The identity matrix's entry at row `r`, column `c`: the row iota plus zero is compared with the column iota
    and the one-bit answer read as a number. -/
theorem eye_apply (r c : Fin 8192) :
    (val_main_v25 (F := Ideal) (ix2 r c) : EReal) = (((if c = r then 1 else 0 : ℝ) : ℝ) : EReal) := by
  rw [val_main_v25_apply, val_main_v24_apply, val_main_v23_apply, val_main_v20_apply, val_main_v22_apply,
    val_main_c_4_apply, val_main_v21_apply]
  show (((IntOp.cmpi .eq (IntOp.addi (BitVec.ofNat 32 r.val) 0#32) (BitVec.ofNat 32 c.val)).toNat : ℝ) : EReal) = _
  have e0 : IntOp.addi (BitVec.ofNat 32 r.val) 0#32 = BitVec.ofNat 32 r.val := by
    unfold IntOp.addi
    exact BitVec.add_zero _
  rw [e0]
  by_cases h : c = r
  · subst h
    rw [if_pos rfl, StableHlo.Predicate.cmpi_eq_iff.mpr rfl]
    simp
  · rw [if_neg h]
    have hne : ¬ (BitVec.ofNat 32 r.val = BitVec.ofNat 32 c.val) := fun e => h (word_inj r c e).symm
    have hz : IntOp.cmpi .eq (BitVec.ofNat 32 r.val) (BitVec.ofNat 32 c.val) = 0#1 := by
      unfold IntOp.cmpi
      show BitVec.ofBool (BitVec.ofNat 32 r.val == BitVec.ofNat 32 c.val) = 0#1
      rw [beq_eq_false_iff_ne.mpr hne]
      rfl
    rw [hz]
    simp

/-! ## The stages at coordinates -/

/-- The adjacency with the self loops: entry `(r, c)` is the scattered entry plus the identity's. -/
theorem looped_apply (x1 : (⟨S2x262144, .i32⟩ : BufTy).Contents (Elt Ideal)) (r c : Fin 8192) :
    (val_main_v26 (F := Ideal) x1 (ix2 r c) : EReal)
      = (val_main_v19 (F := Ideal) x1 (ix2 r c) : EReal) + (((if c = r then 1 else 0 : ℝ) : ℝ) : EReal) := by
  rw [val_main_v26_apply, eye_apply]
  rfl

/-- Row `r`'s degree: zero plus the sum of the row of the looped adjacency. -/
theorem degree_apply (x1 : (⟨S2x262144, .i32⟩ : BufTy).Contents (Elt Ideal)) (r : Fin 8192) :
    (val_main_v27 (F := Ideal) x1 (ix1 r) : EReal)
      = 0 + ∑ c : Fin 8192, ((val_main_v19 (F := Ideal) x1 (ix2 r c) : EReal) + (((if c = r then 1 else 0 : ℝ) : ℝ) : EReal)) := by
  rw [val_main_v27_apply, val_main_cst_5_apply]
  refine congrArg₂ (· + ·) Ideal.ofBits_zero_f32 (Finset.sum_congr rfl fun c _ => ?_)
  have e : idx_main_v27 (ix1 r) c = ix2 r c :=
    funext fun a => Fin.ext (by match a with | ⟨0, _⟩ => rfl | ⟨1, _⟩ => rfl)
  rw [e, looped_apply]

/-- The normalised adjacency: entry `(r, c)` of the looped adjacency divided by row `r`'s degree. -/
theorem normalised_apply (x1 : (⟨S2x262144, .i32⟩ : BufTy).Contents (Elt Ideal)) (r c : Fin 8192) :
    (val_main_v30 (F := Ideal) x1 (ix2 r c) : EReal)
      = Ideal.div (val_main_v26 (F := Ideal) x1 (ix2 r c)) (val_main_v27 (F := Ideal) x1 (ix1 r)) := by
  rw [val_main_v30_apply, val_main_v29_apply, val_main_v28_apply]
  have e : idx_main_v28 (idx_main_v29 (ix2 r c)) = ix1 r :=
    funext fun a => Fin.ext (by match a with | ⟨0, _⟩ => rfl)
  rw [e]
  rfl

/-- The first product: row `r` of the normalised adjacency against column `k` of the features. -/
theorem product_apply (x0 : (⟨S8192x256, .f32⟩ : BufTy).Contents (Elt Ideal))
    (x1 : (⟨S2x262144, .i32⟩ : BufTy).Contents (Elt Ideal)) (r : Fin 8192) (k : Fin 256) :
    (val_main_v31 (F := Ideal) x0 x1 (ix2 r k) : EReal)
      = ∑ c : Fin 8192, (val_main_v30 (F := Ideal) x1 (ix2 r c) : EReal) * x0 (ix2 c k) := by
  rw [val_main_v31_apply]
  refine Finset.sum_congr rfl fun c _ => ?_
  have el : lidx_main_v31 (ix2 r k) c = ix2 r c :=
    funext fun a => Fin.ext (by match a with | ⟨0, _⟩ => rfl | ⟨1, _⟩ => rfl)
  have er : ridx_main_v31 (ix2 r k) c = ix2 c k :=
    funext fun a => Fin.ext (by match a with | ⟨0, _⟩ => rfl | ⟨1, _⟩ => rfl)
  rw [el, er]

/-- The second product and the bias: row `r` of the first product against row `o` of the weights, plus `b o`. -/
theorem linear_apply (x0 : (⟨S8192x256, .f32⟩ : BufTy).Contents (Elt Ideal))
    (x1 : (⟨S2x262144, .i32⟩ : BufTy).Contents (Elt Ideal))
    (x2 : (⟨S256x256, .f32⟩ : BufTy).Contents (Elt Ideal)) (x3 : (⟨S256, .f32⟩ : BufTy).Contents (Elt Ideal))
    (r : Fin 8192) (o : Fin 256) :
    (val_main_v36 (F := Ideal) x0 x1 x2 x3 (ix2 r o) : EReal)
      = (∑ k : Fin 256, (val_main_v31 (F := Ideal) x0 x1 (ix2 r k) : EReal) * x2 (ix2 o k)) + x3 (ix1 o) := by
  rw [val_main_v36_apply, val_main_v33_apply, val_main_v35_apply, val_main_v34_apply]
  have eb : idx_main_v34 (idx_main_v35 (ix2 r o)) = ix1 o :=
    funext fun a => Fin.ext (by match a with | ⟨0, _⟩ => rfl)
  rw [eb]
  refine congrArg (· + x3 (ix1 o)) (Finset.sum_congr rfl fun k _ => ?_)
  have el : lidx_main_v33 (ix2 r o) k = ix2 r k :=
    funext fun a => Fin.ext (by match a with | ⟨0, _⟩ => rfl | ⟨1, _⟩ => rfl)
  have er : idx_main_v32 (ridx_main_v33 (ix2 r o) k) = ix2 o k :=
    funext fun a => Fin.ext (by match a with | ⟨0, _⟩ => rfl | ⟨1, _⟩ => rfl)
  rw [val_main_v32_apply, el, er]

/-! ## Normalise then multiply is multiply then divide -/

/-- Channel `k` of row `r` of the first product is the layer's normalised aggregate: the adjacency row is real
    (each entry 0 or 1) and non-negative, the features are real, and the two normalisations agree on reals. -/
theorem aggregated_apply (x0 : (⟨S8192x256, .f32⟩ : BufTy).Contents (Elt Ideal))
    (x1 : (⟨S2x262144, .i32⟩ : BufTy).Contents (Elt Ideal))
    (hx : ∀ i, ∃ y : ℝ, (x0 i : EReal) = (y : EReal)) (r : Fin 8192) (k : Fin 256) :
    (val_main_v31 (F := Ideal) x0 x1 (ix2 r k) : EReal) = Cert.Gcn.aggregate (val_main_v19 (F := Ideal) x1) x0 r k := by
  have hA : ∀ c : Fin 8192, ∃ a : ℝ, 0 ≤ a ∧ (val_main_v19 (F := Ideal) x1 (ix2 r c) : EReal) = ((a : ℝ) : EReal) := by
    intro c
    rcases adj_zero_or_one x1 (ix2 r c) with h | h
    · exact ⟨0, le_refl 0, h.trans EReal.coe_zero.symm⟩
    · exact ⟨1, zero_le_one, h.trans EReal.coe_one.symm⟩
  choose a ha0 ha using hA
  have hX : ∀ c : Fin 8192, ∃ y : ℝ, (x0 (ix2 c k) : EReal) = ((y : ℝ) : EReal) := fun c => hx (ix2 c k)
  choose ξ hξ using hX
  have hl : ∀ c : Fin 8192, (val_main_v30 (F := Ideal) x1 (ix2 r c) : EReal) * x0 (ix2 c k)
      = Ideal.div (((a c : ℝ) : EReal) + (((if c = r then 1 else 0 : ℝ) : ℝ) : EReal))
          (0 + ∑ c' : Fin 8192, (((a c' : ℝ) : EReal) + (((if c' = r then 1 else 0 : ℝ) : ℝ) : EReal))) * ((ξ c : ℝ) : EReal) := by
    intro c
    have hs : ∑ c' : Fin 8192, ((val_main_v19 (F := Ideal) x1 (ix2 r c') : EReal) + (((if c' = r then 1 else 0 : ℝ) : ℝ) : EReal))
        = ∑ c' : Fin 8192, (((a c' : ℝ) : EReal) + (((if c' = r then 1 else 0 : ℝ) : ℝ) : EReal)) :=
      Finset.sum_congr rfl fun c' _ => by rw [ha c']
    rw [normalised_apply, looped_apply, degree_apply, hs, ha c, hξ c]
  rw [product_apply, Finset.sum_congr rfl fun c _ => hl c]
  refine (Cert.GcnMath.normalise_row a (fun c => if c = r then 1 else 0) ξ r ha0 (fun c => rfl)).trans ?_
  have s1 : ∑ c : Fin 8192, (val_main_v19 (F := Ideal) x1 (ix2 r c) : EReal) * x0 (ix2 c k)
      = ∑ c : Fin 8192, ((a c : ℝ) : EReal) * ((ξ c : ℝ) : EReal) :=
    Finset.sum_congr rfl fun c _ => by rw [ha c, hξ c]
  have s2 : ∑ c : Fin 8192, (val_main_v19 (F := Ideal) x1 (ix2 r c) : EReal) = ∑ c : Fin 8192, ((a c : ℝ) : EReal) :=
    Finset.sum_congr rfl fun c _ => ha c
  unfold Cert.Gcn.aggregate
  rw [s1, s2, hξ r]

/-- the reference's result is the layer's function of its scattered adjacency, when the features are finite -/
theorem result_eq (x0 : (⟨S8192x256, .f32⟩ : BufTy).Contents (Elt Ideal)) (x1 : (⟨S2x262144, .i32⟩ : BufTy).Contents (Elt Ideal))
    (x2 : (⟨S256x256, .f32⟩ : BufTy).Contents (Elt Ideal)) (x3 : (⟨S256, .f32⟩ : BufTy).Contents (Elt Ideal))
    (hx : ∀ i, ∃ y : ℝ, (x0 i : EReal) = (y : EReal)) :
    val_main_v36 (F := Ideal) x0 x1 x2 x3 = Cert.Gcn.result (val_main_v19 (F := Ideal) x1) x0 x2 x3 := by
  funext i
  obtain ⟨r, o, rfl⟩ : ∃ (r : Fin 8192) (o : Fin 256), i = ix2 r o := ⟨i 0, i 1, eq_ix2 i⟩
  rw [Cert.Gcn.result_apply]
  refine (linear_apply x0 x1 x2 x3 r o).trans ?_
  refine congrArg (· + x3 (ix1 o)) (Finset.sum_congr rfl fun k _ => ?_)
  rw [aggregated_apply x0 x1 hx r k]

end Cert.ReferenceIdeal.RefValue

end
-- ==== Proof.AdjSame.lean ====
import proofs.«422402_j46213848105055_3_alg».proof.Proof.Gen.KernelIdeal.Frame
import proofs.«422402_j46213848105055_3_alg».proof.Proof.Gen.ReferenceIdeal.Read
import proofs.«422402_j46213848105055_3_alg».proof.Proof.PayloadAt
import Idealize.ShloMosaic.Lib.StableHlo.Run
import Idealize.ShloMosaic.PureOps.Ideal.Laws

noncomputable section

namespace Cert.AdjSame

open Idealize.ShloMosaic Idealize.ShloMosaic.TcCoe Idealize.SL.Sem Idealize.ShloMosaic.StableHlo

/-!
  The dense adjacency the kernel's host program scatters is the reference's.

  Both programs read the same integer array of edges, take its two rows, add the number of nodes to a negative
  index, pair the two rows into an array of index pairs, and write a one at each pair into an array of zeros. The
  integer part is the same text on both sides. The float part differs only in the format the zeros and ones are
  spelt in — bfloat16 words on the kernel's side, binary32 words on the reference's — and at the ideal values both
  spellings of zero denote the extended real 0 and both spellings of one denote 1. So the two scatters have equal
  operands, equal index arrays and equal updates.
-/

/-! ## The two float words of the kernel's host program -/

/-- The bfloat16 pattern 0x0000 has sign bit 0, exponent field 0 and fraction 0: the zero, 0 * 2 ^ (1 - 127 - 7) = 0. -/
theorem ofBits_zero_bf16 : Ideal.ofBits .bf16 0x0000#16 = 0 := by
  have hsign : ((0x0000#16 : BitVec 16).extractLsb' (8 + 7) 1 == 1#1) = false := by decide
  have hexp : ((0x0000#16 : BitVec 16).extractLsb' 7 8).toNat = 0 := by decide
  have hfrac : ((0x0000#16 : BitVec 16).extractLsb' 0 7).toNat = 0 := by decide
  show Ideal.ieee 8 7 (0x0000#16 : BitVec 16) = 0
  unfold Ideal.ieee
  simp only [hsign, hexp, hfrac]
  norm_num

/-- The bfloat16 pattern 0x3F80 has sign bit 0, exponent field 127 and fraction 0: a normal number,
    (2 ^ 7 + 0) * 2 ^ (127 - 127 - 7) = 1. -/
theorem ofBits_one_bf16 : Ideal.ofBits .bf16 0x3F80#16 = 1 := by
  have hsign : ((0x3F80#16 : BitVec 16).extractLsb' (8 + 7) 1 == 1#1) = false := by decide
  have hexp : ((0x3F80#16 : BitVec 16).extractLsb' 7 8).toNat = 127 := by decide
  have hfrac : ((0x3F80#16 : BitVec 16).extractLsb' 0 7).toNat = 0 := by decide
  show Ideal.ieee 8 7 (0x3F80#16 : BitVec 16) = 1
  unfold Ideal.ieee
  simp only [hsign, hexp, hfrac]
  norm_num

/-! ## A scatter of equal operands -/

/-- A scatter depends only on its operand, its index array and its updates. -/
theorem scatter_congr {α : Type} {s si u : Shape} {w : Nat} (d : ScatterDims s si u) (f : α → α → α)
    {x x' : s.Idx → α} {i i' : IVec si w} {y y' : u.Idx → α} (hx : x = x') (hi : i = i') (hy : y = y') :
    Host.scatter d f x i y = Host.scatter d f x' i' y' := by
  subst hx hi hy
  rfl

/-! ## The two adjacencies -/

set_option maxHeartbeats 4000000 in
/-- The adjacency in the kernel program's buffer when the region is entered is the reference's scattered array,
    as functions from the index pairs to the extended reals. -/
theorem adjacency_same (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v19 : Cert.KernelIdeal.S8192x8192.Idx → EReal)
      = (Cert.ReferenceIdeal.Read.val_main_v19 (F := Ideal) (m ((c : Thread Cert.KernelIdeal.nD Cert.KernelIdeal.τ).loc Cert.KernelIdeal.main_arg1)) : Cert.KernelIdeal.S8192x8192.Idx → EReal) := by
  -- the kernel side: the buffer's contents after the host operations, as the operations' term over the edges
  dsimp only [Cert.KernelIdeal.Gen.V, Cert.KernelIdeal.Gen.hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  -- the reference side: the scatter, its zeros and its ones spelt out; the index array stays folded
  unfold Cert.ReferenceIdeal.Read.val_main_v19 Cert.ReferenceIdeal.Read.val_main_v18 Cert.ReferenceIdeal.Read.val_main_cst_3
    Cert.ReferenceIdeal.Read.val_main_v0 Cert.ReferenceIdeal.Read.val_main_cst
  refine scatter_congr _ _ ?_ ?_ ?_
  · exact congrArg (broadcastInDim (s := Cert.KernelIdeal.S_) (α := EReal) Cert.KernelIdeal.S8192x8192 ![] _)
      (funext fun _ => ofBits_zero_bf16.trans Ideal.ofBits_zero_f32.symm)
  · rfl
  · exact congrArg (broadcastInDim (s := Cert.KernelIdeal.S_) (α := EReal) Cert.KernelIdeal.S262144 ![] _)
      (funext fun _ => ofBits_one_bf16.trans Cert.KernelIdeal.PayloadAt.ofBits_one_f32.symm)

end Cert.AdjSame

end
-- ==== Proof.FiniteFeatures.lean ====
/-
  The precondition says every entry of the features (and of the weights and the bias) is finite: for each array it
  takes absolute values, compares them with +∞ by "less than", and asks that all the answers be true; the three
  conjunctions are and-ed.  Read back: if the predicate is true, every entry `x` has `max x (-x) < ⊤` on the
  extended reals, so `x` is neither `⊤` nor `⊥`, i.e. it is a real number.
-/
import proofs.«422402_j46213848105055_3_alg».proof.Pre_finite_inputs
import proofs.«422402_j46213848105055_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The rank-0 shape has one index. -/
instance : Subsingleton S_.Idx := ⟨fun a b => funext fun d => d.elim0⟩

/-- The word `0x7F800000` denotes +∞: all-ones exponent field, zero significand field, sign bit clear. -/
theorem inf_word : Ideal.ofBits .f32 0x7F800000#32 = (⊤ : EReal) := by
  simp [Ideal.ofBits, Ideal.ieee]

/-- An extended real whose absolute value compares "less than" +∞ is a real: `max ⊤ (-⊤) = max ⊥ (-⊥) = ⊤`. -/
theorem real_of_abs_lt_top (x : EReal) (h : Ideal.cmp .olt (max x (-x)) ⊤ = 1#1) : ∃ y : ℝ, x = (y : EReal) := by
  have hlt : max x (-x) < ⊤ := by
    by_contra hn
    have hb : Ideal.cmp .olt (max x (-x)) ⊤ = 0#1 := by
      show BitVec.ofBool (decide (max x (-x) < ⊤)) = 0#1
      rw [decide_eq_false hn]
      rfl
    rw [hb] at h
    exact absurd h (by decide)
  induction x using EReal.rec with
  | bot =>
    exfalso
    have e : max (⊥ : EReal) (-⊥) = ⊤ := by rw [EReal.neg_bot]; exact max_eq_right bot_le
    exact absurd hlt (by rw [e]; exact lt_irrefl _)
  | coe y => exact ⟨y, rfl⟩
  | top =>
    exfalso
    have e : max (⊤ : EReal) (-⊤) = ⊤ := max_eq_left le_top
    exact absurd hlt (by rw [e]; exact lt_irrefl _)

/-- One array's part of the predicate, at one index: the compare of `|x i|` with the broadcast +∞ word is the
    comparison of `max (x i) (-(x i))` with `⊤` on the extended reals. -/
theorem real_of_entry (x : EReal) (h : Ideal.cmp .olt (max x (-x)) (Ideal.ofBits .f32 0x7F800000#32) = 1#1) :
    ∃ y : ℝ, x = (y : EReal) := by
  rw [inf_word] at h
  exact real_of_abs_lt_top x h

/-- under the precondition every entry of the features is a real -/
theorem features_real [Cert.Pre_finite_inputs.Facts] (x0 : FVec Ideal S8192x256 .f32) (x1 : IVec S2x262144 32) (x2 : FVec Ideal S256x256 .f32) (x3 : FVec Ideal S256 .f32)
    (h : Cert.Pre_finite_inputs.fn (F := Ideal) x0 x1 x2 x3 = fun _ => 1#1) (i : S8192x256.Idx) : ∃ y : ℝ, (x0 i : EReal) = (y : EReal) := by
  have h0 := congrFun h ValueIdx.ix0
  dsimp only [fn] at h0
  have h1 := (IntOp.andi_eq_one.1 h0).1
  have h2 := (IntOp.andi_eq_one.1 h1).1
  have h3 := Host.reduce_andi_all _ _ _ _ _ h2 i
  exact real_of_entry (x0 i) h3

/-- under the precondition every entry of the weights is a real -/
theorem weights_real [Cert.Pre_finite_inputs.Facts] (x0 : FVec Ideal S8192x256 .f32) (x1 : IVec S2x262144 32) (x2 : FVec Ideal S256x256 .f32) (x3 : FVec Ideal S256 .f32)
    (h : Cert.Pre_finite_inputs.fn (F := Ideal) x0 x1 x2 x3 = fun _ => 1#1) (i : S256x256.Idx) : ∃ y : ℝ, (x2 i : EReal) = (y : EReal) := by
  have h0 := congrFun h ValueIdx.ix0
  dsimp only [fn] at h0
  have h1 := (IntOp.andi_eq_one.1 h0).1
  have h2 := (IntOp.andi_eq_one.1 h1).2
  have h3 := Host.reduce_andi_all _ _ _ _ _ h2 i
  exact real_of_entry (x2 i) h3

/-- under the precondition every entry of the bias is a real -/
theorem bias_real [Cert.Pre_finite_inputs.Facts] (x0 : FVec Ideal S8192x256 .f32) (x1 : IVec S2x262144 32) (x2 : FVec Ideal S256x256 .f32) (x3 : FVec Ideal S256 .f32)
    (h : Cert.Pre_finite_inputs.fn (F := Ideal) x0 x1 x2 x3 = fun _ => 1#1) (i : S256.Idx) : ∃ y : ℝ, (x3 i : EReal) = (y : EReal) := by
  have h0 := congrFun h ValueIdx.ix0
  dsimp only [fn] at h0
  have h2 := (IntOp.andi_eq_one.1 h0).2
  have h3 := Host.reduce_andi_all _ _ _ _ _ h2 i
  exact real_of_entry (x3 i) h3

end Cert.Pre_finite_inputs.Finite

end
-- ==== Proof.lean ====
/-
  A dense-adjacency graph-convolution layer: the tiled kernel against the plain array program.

  Both programs scatter ones into an 8192 x 8192 array of zeros at the same index pairs read off the same integer
  input, so they work with the same 0/1 adjacency `A`.  The reference adds the identity, normalises every row by its
  sum and multiplies by the features, then applies the linear layer:
      `out r o = ∑ k, (∑ c, ((A + I) r c / deg r) · x c k) · W o k + b o`,   `deg r = ∑ c, (A + I) r c`.
  The kernel walks a 4 x 4 grid of 2048 x 2048 adjacency tiles, keeps per row tile the running sums
  `∑ c, A r c · x c k` and `∑ c, A r c` over the column tiles seen so far, adds the row's own feature and the
  constant one when it passes the diagonal tile, and on the last column tile divides, applies the linear layer and
  writes the block back:
      `out r o = ∑ k, ((∑ c, A r c · x c k + x r k) / (∑ c, A r c + 1)) · W o k + b o`.
  The two agree because the degree is a real number at least one (the adjacency entries are 0 or 1) and the features
  are finite (the precondition), so dividing before or after the weighted sum is the same real arithmetic; sums of
  extended reals may be regrouped freely, which takes care of the tiling and of where the self loop is added.
  A change of float format is the identity on the extended reals, and the idealised kernel is the kernel's own text.
-/
import proofs.«422402_j46213848105055_3_alg».proof.Defs
import proofs.«422402_j46213848105055_3_alg».proof.Proof.Gen.Kernel
import proofs.«422402_j46213848105055_3_alg».proof.Proof.Gen.Kernel.Skeleton
import proofs.«422402_j46213848105055_3_alg».proof.Proof.Gen.Kernel.Launch
import proofs.«422402_j46213848105055_3_alg».proof.Proof.Gen.Kernel.Points
import proofs.«422402_j46213848105055_3_alg».proof.Proof.Gen.Kernel.Frame
import proofs.«422402_j46213848105055_3_alg».proof.Proof.Gen.KernelIdeal
import proofs.«422402_j46213848105055_3_alg».proof.Proof.Gen.KernelIdeal.Skeleton
import proofs.«422402_j46213848105055_3_alg».proof.Proof.Gen.KernelIdeal.Launch
import proofs.«422402_j46213848105055_3_alg».proof.Proof.Gen.KernelIdeal.Points
import proofs.«422402_j46213848105055_3_alg».proof.Proof.Gen.KernelIdeal.Frame
import proofs.«422402_j46213848105055_3_alg».proof.Proof.Gen.ReferenceIdeal
import proofs.«422402_j46213848105055_3_alg».proof.Proof.Gen.Pre_finite_inputs
import proofs.«422402_j46213848105055_3_alg».proof.Proof.Gen.KernelIdeal.Value
import proofs.«422402_j46213848105055_3_alg».proof.Proof.Gen.ReferenceIdeal.Run
import proofs.«422402_j46213848105055_3_alg».proof.Proof.Gen.ReferenceIdeal.Read
import proofs.«422402_j46213848105055_3_alg».proof.Proof.KValue
import proofs.«422402_j46213848105055_3_alg».proof.Proof.RefValue
import proofs.«422402_j46213848105055_3_alg».proof.Proof.AdjSame
import proofs.«422402_j46213848105055_3_alg».proof.Proof.FiniteFeatures
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of array operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end with the layer's function of the shared adjacency and the arguments. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2,
    Cert.ReferenceIdeal.RefValue.result_eq _ _ _ _
      (fun i => Cert.Pre_finite_inputs.Finite.features_real _ _ _ _ (hpre c) i),
    ← Cert.AdjSame.adjacency_same m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
